-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S1024x3072 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x8x2x3x64 : Shape := ⟨5, ![1024, 8, 2, 3, 64]⟩
abbrev S1024x8x3x2x64 : Shape := ⟨5, ![1024, 8, 3, 2, 64]⟩
abbrev S1024x8x384 : Shape := ⟨3, ![1024, 8, 384]⟩
abbrev S8x1024x384 : Shape := ⟨3, ![8, 1024, 384]⟩
abbrev S8x2x3x64 : Shape := ⟨4, ![8, 2, 3, 64]⟩
abbrev S8x3x2x64 : Shape := ⟨4, ![8, 3, 2, 64]⟩
abbrev S8x384 : Shape := ⟨2, ![8, 384]⟩
abbrev S4x8x2048x128 : Shape := ⟨4, ![4, 8, 2048, 128]⟩
abbrev S4x16x64x2048 : Shape := ⟨4, ![4, 16, 64, 2048]⟩
abbrev S1x512x1024 : Shape := ⟨3, ![1, 512, 1024]⟩
abbrev S1x1x512x128 : Shape := ⟨4, ![1, 1, 512, 128]⟩
abbrev S1x2x64x512 : Shape := ⟨4, ![1, 2, 64, 512]⟩
abbrev S512x1024 : Shape := ⟨2, ![512, 1024]⟩
abbrev S1x1024x384 : Shape := ⟨3, ![1, 1024, 384]⟩
abbrev S1024x384 : Shape := ⟨2, ![1024, 384]⟩
abbrev S1x384 : Shape := ⟨2, ![1, 384]⟩
abbrev S384 : Shape := ⟨1, ![384]⟩
abbrev S512x384 : Shape := ⟨2, ![512, 384]⟩
abbrev S512x128 : Shape := ⟨2, ![512, 128]⟩
abbrev S512x64 : Shape := ⟨2, ![512, 64]⟩
abbrev S64x512 : Shape := ⟨2, ![64, 512]⟩
abbrev S1x1x64x512 : Shape := ⟨4, ![1, 1, 64, 512]⟩
abbrev S1x2x64x2048 : Shape := ⟨4, ![1, 2, 64, 2048]⟩
abbrev S1x1x2048x128 : Shape := ⟨4, ![1, 1, 2048, 128]⟩
abbrev S1x512x128 : Shape := ⟨3, ![1, 512, 128]⟩
abbrev S2x64x2048 : Shape := ⟨3, ![2, 64, 2048]⟩
abbrev S2048x128 : Shape := ⟨2, ![2048, 128]⟩
abbrev S1x64x2048 : Shape := ⟨3, ![1, 64, 2048]⟩
abbrev S64x2048 : Shape := ⟨2, ![64, 2048]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x8x2x3x64, .f32⟩
  | .hbm, ⟨4, _⟩ => ⟨S1024x8x3x2x64, .f32⟩
  | .hbm, ⟨5, _⟩ => ⟨S1024x8x384, .f32⟩
  | .hbm, ⟨6, _⟩ => ⟨S8x1024x384, .f32⟩
  | .hbm, ⟨7, _⟩ => ⟨S8x1024x384, .bf16⟩
  | .hbm, ⟨8, _⟩ => ⟨S8x2x3x64, .f32⟩
  | .hbm, ⟨9, _⟩ => ⟨S8x3x2x64, .f32⟩
  | .hbm, ⟨10, _⟩ => ⟨S8x384, .f32⟩
  | .hbm, ⟨11, _⟩ => ⟨S4x8x2048x128, .bf16⟩
  | .hbm, ⟨12, _⟩ => ⟨S4x16x64x2048, .bf16⟩
  | .hbm, ⟨13, _⟩ => ⟨S4x8x2048x128, .bf16⟩
  | .hbm, ⟨14, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S8x1024x384, .bf16⟩
  | .local _ .vmem, ⟨3, _⟩ => ⟨S8x384, .f32⟩
  | .local _ .vmem, ⟨4, _⟩ => ⟨S1x1x512x128, .bf16⟩
  | .local _ .vmem, ⟨5, _⟩ => ⟨S1x1x512x128, .bf16⟩
  | .local _ .vmem, ⟨6, _⟩ => ⟨S1x2x64x512, .bf16⟩
  | .local _ .vmem, ⟨7, _⟩ => ⟨S1x2x64x512, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x1x512x128, .bf16⟩
  | .local _ .vmem, ⟨11, _⟩ => ⟨S1x1x512x128, .bf16⟩
  | .local _ .vmem, ⟨12, _⟩ => ⟨S1x2x64x2048, .bf16⟩
  | .local _ .vmem, ⟨13, _⟩ => ⟨S1x2x64x2048, .bf16⟩
  | .local _ .vmem, ⟨14, _⟩ => ⟨S1x1x2048x128, .bf16⟩
  | .local _ .vmem, ⟨15, _⟩ => ⟨S1x1x2048x128, .bf16⟩
  | .local _ .vmem, ⟨16, _⟩ => ⟨S1x512x128, .f32⟩
  | .local _ .vmem, ⟨17, _⟩ => ⟨S1x512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨3, ![4, 4, 8], ![false, false, false]⟩

def k0_off1 (i : grid0.Coords) : Fin 3 → Nat :=
  let arg2 : BitVec 32 := BitVec.ofNat 32 (i 2).val
  let v3 : Index := Scalar.indexCast arg2
  let c0_2 : Index := 0#32
  let c0_3 : Index := 0#32
  ![v3.toNat, 0, 0]
def k0_off2 (i : grid0.Coords) : Fin 2 → Nat :=
  let arg2 : BitVec 32 := BitVec.ofNat 32 (i 2).val
  let v6 : Index := Scalar.indexCast arg2
  let c0_4 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨3, ![4, 8, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S1024x3072_S1024x8x2x3x64 : S1024x3072.ShapeCasts S1024x8x2x3x64
  transposes_S1024x8x2x3x64_S1024x8x3x2x64_0_1_3_2_4 : S1024x8x2x3x64.Transposes [0, 1, 3, 2, 4] S1024x8x3x2x64
  shapeCasts_S1024x8x3x2x64_S1024x8x384 : S1024x8x3x2x64.ShapeCasts S1024x8x384
  transposes_S1024x8x384_S8x1024x384_1_0_2 : S1024x8x384.Transposes [1, 0, 2] S8x1024x384
  bitsLt_bf16_f32 : FTy.bits .bf16 < FTy.bits .f32
  shapeCasts_S3072_S8x2x3x64 : S3072.ShapeCasts S8x2x3x64
  transposes_S8x2x3x64_S8x3x2x64_0_2_1_3 : S8x2x3x64.Transposes [0, 2, 1, 3] S8x3x2x64
  shapeCasts_S8x3x2x64_S8x384 : S8x3x2x64.ShapeCasts S8x384
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  h_S1x1024x384 : 0 < S1x1024x384.numel
  shapeCasts_S1x1024x384_S1024x384 : S1x1024x384.ShapeCasts S1024x384
  h_S1x384 : 0 < S1x384.numel
  shapeCasts_S1x384_S384 : S1x384.ShapeCasts S384
  shapeCasts_S384_S1x384 : S384.ShapeCasts S1x384
  broadcasts_S1x384_S512x384 : S1x384.Broadcasts S512x384
  slices_S512x384_o0_0_S512x128 : S512x384.Slices ![0, 0] S512x128
  slices_S512x384_o0_128_S512x64 : S512x384.Slices ![0, 128] S512x64
  slices_S512x384_o0_192_S512x64 : S512x384.Slices ![0, 192] S512x64
  slices_S512x384_o0_256_S512x128 : S512x384.Slices ![0, 256] S512x128
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  shapeCasts_S512x128_S1x1x512x128 : S512x128.ShapeCasts S1x1x512x128
  packedbf16_S1x1x512x128_S1x1x512x128_0_0_0_0 : (Rect.unit (s := S1x1x512x128) ![0, 0, 0, 0] S1x1x512x128.size inb_S1x1x512x128_S1x1x512x128_0_0_0_0).PackedRows (EltTy.packing .bf16)
  transposes_S512x64_p1_0_S64x512 : S512x64.Transposes [1, 0] S64x512
  inb_S1x2x64x512_S1x1x64x512_0_0_0_0 : ∀ a, (![0, 0, 0, 0] : Fin 4 → Nat) a + S1x1x64x512.size a ≤ S1x2x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  packedbf16_S1x2x64x512_S1x1x64x512_0_0_0_0 : (Rect.unit (s := S1x2x64x512) ![0, 0, 0, 0] S1x1x64x512.size inb_S1x2x64x512_S1x1x64x512_0_0_0_0).PackedRows (EltTy.packing .bf16)
  inb_S1x2x64x512_S1x1x64x512_0_1_0_0 : ∀ a, (![0, 1, 0, 0] : Fin 4 → Nat) a + S1x1x64x512.size a ≤ S1x2x64x512.size a
  packedbf16_S1x2x64x512_S1x1x64x512_0_1_0_0 : (Rect.unit (s := S1x2x64x512) ![0, 1, 0, 0] S1x1x64x512.size inb_S1x2x64x512_S1x1x64x512_0_1_0_0).PackedRows (EltTy.packing .bf16)
  inb_S1x2x64x2048_S1x2x64x2048_0_0_0_0 : ∀ a, (![0, 0, 0, 0] : Fin 4 → Nat) a + S1x2x64x2048.size a ≤ S1x2x64x2048.size a
  h_S1x2x64x2048 : 0 < S1x2x64x2048.numel
  shapeCasts_S1x2x64x2048_S2x64x2048 : S1x2x64x2048.ShapeCasts S2x64x2048
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  slices_S512x128_o0_0_S512x64 : S512x128.Slices ![0, 0] S512x64
  slices_S512x128_o0_64_S512x64 : S512x128.Slices ![0, 64] S512x64
  slices_S2x64x2048_o0_0_0_S1x64x2048 : S2x64x2048.Slices ![0, 0, 0] S1x64x2048
  shapeCasts_S1x64x2048_S64x2048 : S1x64x2048.ShapeCasts S64x2048
  slices_S2x64x2048_o1_0_0_S1x64x2048 : S2x64x2048.Slices ![1, 0, 0] S1x64x2048
  slices_S2048x128_o0_0_S2048x64 : S2048x128.Slices ![0, 0] S2048x64
  slices_S2048x128_o0_64_S2048x64 : S2048x128.Slices ![0, 64] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  inb_S1x512x128_S1x512x64_0_0_64 : ∀ a, (![0, 0, 64] : Fin 3 → Nat) a + S1x512x64.size a ≤ S1x512x128.size a
  dot_S512x1024_S1024x384_S512x384_1_0_0_1_n_n_wf : DotDims.WF S512x1024 S1024x384 S512x384 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1x1024x384.size a ≤ S8x1024x384.size a
  k0_off2_inb : ∀ i : grid0.Coords, ∀ a, (k0_off2 i) a + S1x384.size a ≤ S8x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x384.size a ≤ S8x1024x384.size a
  hwx0_1 : ∀ i : grid0.Coords, EltTy.bits .bf16 = 32 ∨ (Rect.block (s := S8x1024x384) S8x1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x384.size a ≤ S8x384.size a
  hwx0_2 : ∀ i : grid0.Coords, EltTy.bits .f32 = 32 ∨ (Rect.block (s := S8x384) S8x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x128.size a ≤ S4x8x2048x128.size a
  hwx0_3 : ∀ i : grid0.Coords, EltTy.bits .bf16 = 32 ∨ (Rect.block (s := S4x8x2048x128) S1x1x512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x64x512.size a ≤ S4x16x64x2048.size a
  hwx0_4 : ∀ i : grid0.Coords, EltTy.bits .bf16 = 32 ∨ (Rect.block (s := S4x16x64x2048) S1x2x64x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x128.size a ≤ S4x8x2048x128.size a
  hwx0_5 : ∀ i : grid0.Coords, EltTy.bits .bf16 = 32 ∨ (Rect.block (s := S4x8x2048x128) S1x1x512x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x128.size a ≤ S4x8x2048x128.size a
  hwx1_0 : ∀ i : grid1.Coords, EltTy.bits .bf16 = 32 ∨ (Rect.block (s := S4x8x2048x128) S1x1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x64x2048.size a ≤ S4x16x64x2048.size a
  hwx1_1 : ∀ i : grid1.Coords, EltTy.bits .bf16 = 32 ∨ (Rect.block (s := S4x16x64x2048) S1x2x64x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x128.size a ≤ S4x8x2048x128.size a
  hwx1_2 : ∀ i : grid1.Coords, EltTy.bits .bf16 = 32 ∨ (Rect.block (s := S4x8x2048x128) S1x1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .f32 = 32 ∨ (Rect.block (s := S4x2048x1024) S1x512x128.size (cc1_transform_3 i) (hinb1_3 i)).WholeWords (EltTy.packing .f32)

variable [Facts₀]

def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x2x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_0) S1x1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x2x64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S4x2048x3072 : Shape := ⟨3, ![4, 2048, 3072]⟩
abbrev S1x1x3072 : Shape := ⟨3, ![1, 1, 3072]⟩
abbrev S4x2048x16x3x64 : Shape := ⟨5, ![4, 2048, 16, 3, 64]⟩
abbrev S4x2048x16x1x64 : Shape := ⟨5, ![4, 2048, 16, 1, 64]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x16x3x64, .f32⟩
  | .hbm, ⟨8, _⟩ => ⟨S4x2048x16x1x64, .f32⟩
  | .hbm, ⟨9, _⟩ => ⟨S4x2048x16x64, .f32⟩
  | .hbm, ⟨10, _⟩ => ⟨S4x16x2048x64, .f32⟩
  | .hbm, ⟨11, _⟩ => ⟨S4x2048x16x1x64, .f32⟩
  | .hbm, ⟨12, _⟩ => ⟨S4x2048x16x64, .f32⟩
  | .hbm, ⟨13, _⟩ => ⟨S4x16x2048x64, .f32⟩
  | .hbm, ⟨14, _⟩ => ⟨S4x2048x16x1x64, .f32⟩
  | .hbm, ⟨15, _⟩ => ⟨S4x2048x16x64, .f32⟩
  | .hbm, ⟨16, _⟩ => ⟨S4x16x2048x64, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S_, .f32⟩
  | .hbm, ⟨24, _⟩ => ⟨S4x16x2048, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x64, .f32⟩
  | .hbm, ⟨36, _⟩ => ⟨S4x2048x16x64, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x3x64 : S4x2048x3072.ShapeCasts S4x2048x16x3x64
  slices_S4x2048x16x3x64_S4x2048x16x1x64_0_0_0_0_0 : S4x2048x16x3x64.Slices ![0, 0, 0, 0, 0] S4x2048x16x1x64
  shapeCasts_S4x2048x16x1x64_S4x2048x16x64 : S4x2048x16x1x64.ShapeCasts S4x2048x16x64
  transposes_S4x2048x16x64_S4x16x2048x64_0_2_1_3 : S4x2048x16x64.Transposes [0, 2, 1, 3] S4x16x2048x64
  slices_S4x2048x16x3x64_S4x2048x16x1x64_0_0_0_1_0 : S4x2048x16x3x64.Slices ![0, 0, 0, 1, 0] S4x2048x16x1x64
  slices_S4x2048x16x3x64_S4x2048x16x1x64_0_0_0_2_0 : S4x2048x16x3x64.Slices ![0, 0, 0, 2, 0] S4x2048x16x1x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The mathematics both programs compute, stated once over coordinates, free of either program's tiling.

  From x[b,t,·] (4 × 2048 rows of 1024), a weight matrix w (1024 × 3072) and a bias (3072) the fused projection is
      y[b,t,e] = ∑ₖ x[b,t,k] · w[k,e] + bias[e],
  and column e = 192·h + 64·g + d holds, for head h (of 16) and lane d (of 64), the query (g = 0), key (g = 1) or
  value (g = 2) coordinate. Per head the attention is the softmax over the keys j of the scaled scores
      s[i,j] = (∑_d q[i,d] · k[j,d]) · 2⁻³,   p[i,j] = exp (s[i,j] − maxⱼ s[i,j]),   l[i] = ∑ⱼ p[i,j],
  applied to the values. The two programs differ in WHERE they divide by l: one divides the weighted sum
  (∑ⱼ p[i,j] · v[j,d]) / l[i]  (`lateRow`, `attnLate`), the other normalises the weights first,
  ∑ⱼ (p[i,j] / l[i]) · v[j,d]  (`earlyRow`, `attnEarly`). Result element (b, t, 64·h + d) is head h's output row t, lane d.

  Also here: the paired layout one program keeps q, k and v in between its two stages (two heads side by side in 128
  lanes; keys transposed), and the regrouped weights (per head pair: 384 columns ordered g, then head of the pair,
  then lane) it projects with.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 1024]⟩
abbrev SW : Shape := ⟨2, ![1024, 3072]⟩
abbrev SB : Shape := ⟨1, ![3072]⟩
abbrev SWp : Shape := ⟨3, ![8, 1024, 384]⟩
abbrev SBp : Shape := ⟨2, ![8, 384]⟩
abbrev SQ8 : Shape := ⟨4, ![4, 8, 2048, 128]⟩
abbrev SK16 : Shape := ⟨4, ![4, 16, 64, 2048]⟩

/-- q, k or v of every head: batch, head, row, lane. -/
abbrev Heads := Fin 4 → Fin 16 → Fin 2048 → Fin 64 → EReal

/-- The fused projection y[b,t,e]. -/
def proj (x : SX.Idx → EReal) (w : SW.Idx → EReal) (bias : SB.Idx → EReal) (b : Fin 4) (t : Fin 2048) (e : Fin 3072) : EReal :=
  (∑ k : Fin 1024, x (ix3 b t k) * w (ix2 k e)) + bias (ix1 e)

/-- Column 192·h + 64·g + d of the projection. -/
def col (h : Fin 16) (g : Fin 3) (d : Fin 64) : Fin 3072 :=
  ⟨h.val * 192 + g.val * 64 + d.val, by have := h.isLt; have := g.isLt; have := d.isLt; omega⟩

/-- The projection's group g (0 queries, 1 keys, 2 values) head by head. -/
def headsOf (x : SX.Idx → EReal) (w : SW.Idx → EReal) (bias : SB.Idx → EReal) (g : Fin 3) : Heads :=
  fun b h t d => proj x w bias b t (col h g d)

/-- The scaled score of one query row against key row j (the scale is the literal 2⁻³). -/
def rowScore (qrow : Fin 64 → EReal) (k : Fin 2048 → Fin 64 → EReal) (j : Fin 2048) : EReal :=
  (∑ d : Fin 64, qrow d * k j d) * Ideal.ofBits .f32 0x3E000000#32

/-- A row's maximum, folded from the literal −∞. -/
def rowMax (s : Fin 2048 → EReal) : EReal :=
  (Finset.univ : Finset (Fin 2048)).fold max (Ideal.ofBits .f32 0xFF800000#32) s

/-- The unnormalised softmax weight exp (s[j] − maxⱼ s[j]) of one query row. -/
def rowWeight (qrow : Fin 64 → EReal) (k : Fin 2048 → Fin 64 → EReal) (j : Fin 2048) : EReal :=
  Ideal.exp (rowScore qrow k j - rowMax (rowScore qrow k))

/-- The row's softmax normaliser. -/
def rowDenom (qrow : Fin 64 → EReal) (k : Fin 2048 → Fin 64 → EReal) : EReal :=
  ∑ j : Fin 2048, rowWeight qrow k j

/-- One output row, dividing the weighted sum of the values by the normaliser. -/
def lateRow (qrow : Fin 64 → EReal) (k v : Fin 2048 → Fin 64 → EReal) (d : Fin 64) : EReal :=
  Ideal.div (∑ j : Fin 2048, rowWeight qrow k j * v j d) (rowDenom qrow k)

/-- One output row, normalising each weight before the sum over the values. -/
def earlyRow (qrow : Fin 64 → EReal) (k v : Fin 2048 → Fin 64 → EReal) (d : Fin 64) : EReal :=
  ∑ j : Fin 2048, Ideal.div (rowWeight qrow k j) (rowDenom qrow k) * v j d

/-- Attention head by head, row by row, dividing late / normalising early. -/
def attnLate (q k v : Heads) (b : Fin 4) (h : Fin 16) (i : Fin 2048) (d : Fin 64) : EReal :=
  lateRow (q b h i) (k b h) (v b h) d
def attnEarly (q k v : Heads) (b : Fin 4) (h : Fin 16) (i : Fin 2048) (d : Fin 64) : EReal :=
  earlyRow (q b h i) (k b h) (v b h) d

/-- An array of finite entries. -/
def Finite {s : Shape} (a : s.Idx → EReal) : Prop := ∀ i, ∃ r : ℝ, a i = (r : EReal)

/-- Head and lane of a result column e = 64·h + d. -/
def headOf (e : Fin 1024) : Fin 16 := ⟨e.val / 64, by have := e.isLt; omega⟩
def laneOf (e : Fin 1024) : Fin 64 := ⟨e.val % 64, Nat.mod_lt _ (by decide)⟩

/-- The result array of a per-head function: element (b, t, 64·h + d) is head h's row t, lane d. -/
def merge (o : Heads) : SX.Idx → EReal :=
  fun i => o ⟨(i 0).val, (i 0).isLt⟩ (headOf ⟨(i 2).val, (i 2).isLt⟩) ⟨(i 1).val, (i 1).isLt⟩ (laneOf ⟨(i 2).val, (i 2).isLt⟩)

/-- The whole computation, dividing late / normalising early. -/
def outLate (x : SX.Idx → EReal) (w : SW.Idx → EReal) (bias : SB.Idx → EReal) : SX.Idx → EReal :=
  merge (attnLate (headsOf x w bias 0) (headsOf x w bias 1) (headsOf x w bias 2))
def outEarly (x : SX.Idx → EReal) (w : SW.Idx → EReal) (bias : SB.Idx → EReal) : SX.Idx → EReal :=
  merge (attnEarly (headsOf x w bias 0) (headsOf x w bias 1) (headsOf x w bias 2))

/-! ## The paired layout between the two stages -/

/-- Column of the regrouped weights for head pair hp: c = 128·g + 64·(head of the pair) + d  ↦  the projection's
    column 192·(2·hp + head of the pair) + 64·g + d. -/
def pairCol (hp : Fin 8) (c : Fin 384) : Fin 3072 :=
  ⟨hp.val * 384 + (c.val % 128 / 64) * 192 + (c.val / 128) * 64 + c.val % 64, by have := hp.isLt; have := c.isLt; omega⟩

/-- The regrouped weights and bias. -/
def wpOf (w : SW.Idx → EReal) : SWp.Idx → EReal :=
  fun i => w (ix2 ⟨(i 1).val, (i 1).isLt⟩ (pairCol ⟨(i 0).val, (i 0).isLt⟩ ⟨(i 2).val, (i 2).isLt⟩))
def bpOf (bias : SB.Idx → EReal) : SBp.Idx → EReal :=
  fun i => bias (ix1 (pairCol ⟨(i 0).val, (i 0).isLt⟩ ⟨(i 1).val, (i 1).isLt⟩))

/-- The projection against the regrouped weights: row (b, t), head pair hp, column c of its 384. -/
def projP (x : SX.Idx → EReal) (wp : SWp.Idx → EReal) (bp : SBp.Idx → EReal) (b : Fin 4) (t : Fin 2048) (hp : Fin 8) (c : Fin 384) : EReal :=
  (∑ k : Fin 1024, x (ix3 b t k) * wp (ix3 hp k c)) + bp (ix2 hp c)

/-- One tile of 512 rows against one pair's slab of the regrouped weights: row r of the tile, column c of the 384. -/
def tileProj (xt : (⟨3, ![1, 512, 1024]⟩ : Shape).Idx → EReal) (wt : (⟨3, ![1, 1024, 384]⟩ : Shape).Idx → EReal)
    (bt : (⟨2, ![1, 384]⟩ : Shape).Idx → EReal) (r : Fin 512) (c : Fin 384) : EReal :=
  (∑ k : Fin 1024, xt (ix3 (0 : Fin 1) r k) * wt (ix3 (0 : Fin 1) k c)) + bt (ix2 (0 : Fin 1) c)

/-- The three arrays the first stage leaves: queries and values paired (batch, pair, row, 128 lanes: columns
    0‥127 and 256‥383 of the pair's 384), keys per head and transposed (batch, head, lane, row: columns 128‥255). -/
def qArr (x : SX.Idx → EReal) (wp : SWp.Idx → EReal) (bp : SBp.Idx → EReal) : SQ8.Idx → EReal :=
  fun i => projP x wp bp ⟨(i 0).val, (i 0).isLt⟩ ⟨(i 2).val, (i 2).isLt⟩ ⟨(i 1).val, (i 1).isLt⟩
    ⟨(i 3).val, by have : (i 3).val < 128 := (i 3).isLt; omega⟩
def vArr (x : SX.Idx → EReal) (wp : SWp.Idx → EReal) (bp : SBp.Idx → EReal) : SQ8.Idx → EReal :=
  fun i => projP x wp bp ⟨(i 0).val, (i 0).isLt⟩ ⟨(i 2).val, (i 2).isLt⟩ ⟨(i 1).val, (i 1).isLt⟩
    ⟨256 + (i 3).val, by have : (i 3).val < 128 := (i 3).isLt; omega⟩
def kArr (x : SX.Idx → EReal) (wp : SWp.Idx → EReal) (bp : SBp.Idx → EReal) : SK16.Idx → EReal :=
  fun i => projP x wp bp ⟨(i 0).val, (i 0).isLt⟩ ⟨(i 3).val, (i 3).isLt⟩
    ⟨(i 1).val / 2, by have : (i 1).val < 16 := (i 1).isLt; omega⟩
    ⟨128 + (i 1).val % 2 * 64 + (i 2).val, by have : (i 2).val < 64 := (i 2).isLt; omega⟩

/-- Reading the paired arrays head by head. -/
def pairedHeads (a : SQ8.Idx → EReal) : Heads :=
  fun b h t d => a (ix4 b ⟨h.val / 2, by have := h.isLt; omega⟩ t ⟨h.val % 2 * 64 + d.val, by have := d.isLt; omega⟩)
def keyHeads (a : SK16.Idx → EReal) : Heads :=
  fun b h t d => a (ix4 b h d t)

/-- The second stage's result from the three arrays it is given. -/
def attnArr (q8 : SQ8.Idx → EReal) (k16 : SK16.Idx → EReal) (v8 : SQ8.Idx → EReal) : SX.Idx → EReal :=
  merge (attnLate (pairedHeads q8) (keyHeads k16) (pairedHeads v8))

end Cert.Spec

end
-- ==== Proof.HostPre.lean ====
/- The host operations before the first stage: the regrouped weights and bias as functions of the arguments. -/
import proofs.«423137_j14577119002882_3_alg».proof.Proof.Gen.KernelIdeal.Frame
import proofs.«423137_j14577119002882_3_alg».proof.Proof.Spec
import Idealize.ShloMosaic.Lib.Pipeline.Value
import Idealize.ShloMosaic.Lib.StableHlo.Run

set_option maxRecDepth 16384
noncomputable section

namespace Cert.KernelIdeal.HostPre

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The regrouping read at an index

The weights w[k, e] are cut as e = 384·hp + 192·p + 64·g + d (pair hp, head p of the pair, group g, lane d), the
axes p and g are exchanged, (g, p, d) is flattened to c = 128·g + 64·p + d, and the pair axis is moved to the front.
Read backwards at (hp, k, c): g = c / 128, p = c % 128 / 64, d = c % 64, which is `Cert.Spec.pairCol`. -/

private abbrev wk1 (i : S8x1024x384.Idx) : S1024x8x384.Idx := fun a => match a with
  | ⟨0, _⟩ => ⟨(i 1).val, (i 1).isLt⟩
  | ⟨1, _⟩ => ⟨(i 0).val, (i 0).isLt⟩
  | ⟨2, _⟩ => ⟨(i 2).val, (i 2).isLt⟩

private abbrev wk2 (i : S8x1024x384.Idx) : S1024x8x3x2x64.Idx := fun a => match a with
  | ⟨0, _⟩ => ⟨(i 1).val, (i 1).isLt⟩
  | ⟨1, _⟩ => ⟨(i 0).val, (i 0).isLt⟩
  | ⟨2, _⟩ => ⟨(i 2).val / 128, by have h2 : (i 2).val < 384 := (i 2).isLt; show (i 2).val / 128 < 3; omega⟩
  | ⟨3, _⟩ => ⟨(i 2).val % 128 / 64, by show (i 2).val % 128 / 64 < 2; omega⟩
  | ⟨4, _⟩ => ⟨(i 2).val % 64, by show (i 2).val % 64 < 64; omega⟩

private abbrev wk3 (i : S8x1024x384.Idx) : S1024x8x2x3x64.Idx := fun a => match a with
  | ⟨0, _⟩ => ⟨(i 1).val, (i 1).isLt⟩
  | ⟨1, _⟩ => ⟨(i 0).val, (i 0).isLt⟩
  | ⟨2, _⟩ => ⟨(i 2).val % 128 / 64, by show (i 2).val % 128 / 64 < 2; omega⟩
  | ⟨3, _⟩ => ⟨(i 2).val / 128, by have h2 : (i 2).val < 384 := (i 2).isLt; show (i 2).val / 128 < 3; omega⟩
  | ⟨4, _⟩ => ⟨(i 2).val % 64, by show (i 2).val % 64 < 64; omega⟩

private abbrev wk4 (i : S8x1024x384.Idx) : S1024x3072.Idx :=
  ValueIdx.ix2 (⟨(i 1).val, (i 1).isLt⟩ : Fin 1024)
    (Cert.Spec.pairCol (⟨(i 0).val, (i 0).isLt⟩ : Fin 8) (⟨(i 2).val, (i 2).isLt⟩ : Fin 384))

/-- The conversion to the narrower format is the identity on extended reals. -/
private theorem w_conv (y : (⟨S8x1024x384, .f32⟩ : BufTy).Contents (Elt Ideal)) (i : S8x1024x384.Idx) :
    (truncf (F := Ideal) .bf16 y bitsLt_bf16_f32) i = y i := rfl

/-- The pair axis moved to the front. -/
private theorem w_t3 (y : (⟨S1024x8x384, .f32⟩ : BufTy).Contents (Elt Ideal)) (i : S8x1024x384.Idx) :
    transpose S8x1024x384 [1, 0, 2] y transposes_S1024x8x384_S8x1024x384_1_0_2 i = y (wk1 i) :=
  transpose_apply [1, 0, 2] y transposes_S1024x8x384_S8x1024x384_1_0_2 i (wk1 i) (fun b => match b with
    | ⟨0, _⟩ => rfl
    | ⟨1, _⟩ => rfl
    | ⟨2, _⟩ => rfl)

/-- (g, p, d) flattened to c = 128·g + 64·p + d. -/
private theorem w_r2 (y : (⟨S1024x8x3x2x64, .f32⟩ : BufTy).Contents (Elt Ideal)) (i : S8x1024x384.Idx) :
    shapeCast S1024x8x384 y shapeCasts_S1024x8x3x2x64_S1024x8x384 (wk1 i) = y (wk2 i) :=
  shapeCast_apply y shapeCasts_S1024x8x3x2x64_S1024x8x384 (wk1 i) (wk2 i)
    (by rewrite [Shape.rowMajor_val_five, Shape.rowMajor_val_three]
        have h0 : (i 0).val < 8 := (i 0).isLt
        have h1 : (i 1).val < 1024 := (i 1).isLt
        have h2 : (i 2).val < 384 := (i 2).isLt
        show ((((i 1).val * 8 + (i 0).val) * 3 + (i 2).val / 128) * 2 + (i 2).val % 128 / 64) * 64 + (i 2).val % 64
          = ((i 1).val * 8 + (i 0).val) * 384 + (i 2).val
        omega)

/-- The axes p and g exchanged. -/
private theorem w_t1 (y : (⟨S1024x8x2x3x64, .f32⟩ : BufTy).Contents (Elt Ideal)) (i : S8x1024x384.Idx) :
    transpose S1024x8x3x2x64 [0, 1, 3, 2, 4] y transposes_S1024x8x2x3x64_S1024x8x3x2x64_0_1_3_2_4 (wk2 i) = y (wk3 i) :=
  transpose_apply [0, 1, 3, 2, 4] y transposes_S1024x8x2x3x64_S1024x8x3x2x64_0_1_3_2_4 (wk2 i) (wk3 i) (fun b => match b with
    | ⟨0, _⟩ => rfl
    | ⟨1, _⟩ => rfl
    | ⟨2, _⟩ => rfl
    | ⟨3, _⟩ => rfl
    | ⟨4, _⟩ => rfl)

/-- The column e cut as 384·hp + 192·p + 64·g + d. -/
private theorem w_r0 (w : (⟨S1024x3072, .f32⟩ : BufTy).Contents (Elt Ideal)) (i : S8x1024x384.Idx) :
    shapeCast S1024x8x2x3x64 w shapeCasts_S1024x3072_S1024x8x2x3x64 (wk3 i) = w (wk4 i) :=
  shapeCast_apply w shapeCasts_S1024x3072_S1024x8x2x3x64 (wk3 i) (wk4 i)
    (by rewrite [Shape.rowMajor_val_two, Shape.rowMajor_val_five]
        have h0 : (i 0).val < 8 := (i 0).isLt
        have h1 : (i 1).val < 1024 := (i 1).isLt
        have h2 : (i 2).val < 384 := (i 2).isLt
        show (i 1).val * 3072 + ((i 0).val * 384 + (i 2).val % 128 / 64 * 192 + (i 2).val / 128 * 64 + (i 2).val % 64)
          = ((((i 1).val * 8 + (i 0).val) * 2 + (i 2).val % 128 / 64) * 3 + (i 2).val / 128) * 64 + (i 2).val % 64
        omega)

private theorem wp_chain (w : (⟨S1024x3072, .f32⟩ : BufTy).Contents (Elt Ideal)) (i : S8x1024x384.Idx) :
    (truncf (F := Ideal) .bf16 (transpose S8x1024x384 [1, 0, 2] (shapeCast S1024x8x384 (transpose S1024x8x3x2x64 [0, 1, 3, 2, 4]
        (shapeCast S1024x8x2x3x64 w shapeCasts_S1024x3072_S1024x8x2x3x64)
        transposes_S1024x8x2x3x64_S1024x8x3x2x64_0_1_3_2_4) shapeCasts_S1024x8x3x2x64_S1024x8x384)
        transposes_S1024x8x384_S8x1024x384_1_0_2) bitsLt_bf16_f32) i = Cert.Spec.wpOf w i :=
  (w_conv _ i).trans ((w_t3 _ i).trans ((w_r2 _ i).trans ((w_t1 _ i).trans ((w_r0 w i).trans rfl))))

/-! The bias is regrouped the same way, without the row axis. -/

private abbrev bk1 (i : S8x384.Idx) : S8x3x2x64.Idx := fun a => match a with
  | ⟨0, _⟩ => ⟨(i 0).val, (i 0).isLt⟩
  | ⟨1, _⟩ => ⟨(i 1).val / 128, by have h1 : (i 1).val < 384 := (i 1).isLt; show (i 1).val / 128 < 3; omega⟩
  | ⟨2, _⟩ => ⟨(i 1).val % 128 / 64, by show (i 1).val % 128 / 64 < 2; omega⟩
  | ⟨3, _⟩ => ⟨(i 1).val % 64, by show (i 1).val % 64 < 64; omega⟩

private abbrev bk2 (i : S8x384.Idx) : S8x2x3x64.Idx := fun a => match a with
  | ⟨0, _⟩ => ⟨(i 0).val, (i 0).isLt⟩
  | ⟨1, _⟩ => ⟨(i 1).val % 128 / 64, by show (i 1).val % 128 / 64 < 2; omega⟩
  | ⟨2, _⟩ => ⟨(i 1).val / 128, by have h1 : (i 1).val < 384 := (i 1).isLt; show (i 1).val / 128 < 3; omega⟩
  | ⟨3, _⟩ => ⟨(i 1).val % 64, by show (i 1).val % 64 < 64; omega⟩

private abbrev bk3 (i : S8x384.Idx) : S3072.Idx :=
  ValueIdx.ix1 (Cert.Spec.pairCol (⟨(i 0).val, (i 0).isLt⟩ : Fin 8) (⟨(i 1).val, (i 1).isLt⟩ : Fin 384))

/-- (g, p, d) flattened to c = 128·g + 64·p + d. -/
private theorem b_r2 (y : (⟨S8x3x2x64, .f32⟩ : BufTy).Contents (Elt Ideal)) (i : S8x384.Idx) :
    shapeCast S8x384 y shapeCasts_S8x3x2x64_S8x384 i = y (bk1 i) :=
  shapeCast_apply y shapeCasts_S8x3x2x64_S8x384 i (bk1 i)
    (by rewrite [Shape.rowMajor_val_four, Shape.rowMajor_val_two]
        have h0 : (i 0).val < 8 := (i 0).isLt
        have h1 : (i 1).val < 384 := (i 1).isLt
        show (((i 0).val * 3 + (i 1).val / 128) * 2 + (i 1).val % 128 / 64) * 64 + (i 1).val % 64
          = (i 0).val * 384 + (i 1).val
        omega)

/-- The axes p and g exchanged. -/
private theorem b_t1 (y : (⟨S8x2x3x64, .f32⟩ : BufTy).Contents (Elt Ideal)) (i : S8x384.Idx) :
    transpose S8x3x2x64 [0, 2, 1, 3] y transposes_S8x2x3x64_S8x3x2x64_0_2_1_3 (bk1 i) = y (bk2 i) :=
  transpose_apply [0, 2, 1, 3] y transposes_S8x2x3x64_S8x3x2x64_0_2_1_3 (bk1 i) (bk2 i) (fun b => match b with
    | ⟨0, _⟩ => rfl
    | ⟨1, _⟩ => rfl
    | ⟨2, _⟩ => rfl
    | ⟨3, _⟩ => rfl)

/-- The column e cut as 384·hp + 192·p + 64·g + d. -/
private theorem b_r0 (bias : (⟨S3072, .f32⟩ : BufTy).Contents (Elt Ideal)) (i : S8x384.Idx) :
    shapeCast S8x2x3x64 bias shapeCasts_S3072_S8x2x3x64 (bk2 i) = bias (bk3 i) :=
  shapeCast_apply bias shapeCasts_S3072_S8x2x3x64 (bk2 i) (bk3 i)
    (by rewrite [Shape.rowMajor_val_one, Shape.rowMajor_val_four]
        have h0 : (i 0).val < 8 := (i 0).isLt
        have h1 : (i 1).val < 384 := (i 1).isLt
        show (i 0).val * 384 + (i 1).val % 128 / 64 * 192 + (i 1).val / 128 * 64 + (i 1).val % 64
          = (((i 0).val * 2 + (i 1).val % 128 / 64) * 3 + (i 1).val / 128) * 64 + (i 1).val % 64
        omega)

private theorem bp_chain (bias : (⟨S3072, .f32⟩ : BufTy).Contents (Elt Ideal)) (i : S8x384.Idx) :
    shapeCast S8x384 (transpose S8x3x2x64 [0, 2, 1, 3]
        (shapeCast S8x2x3x64 bias shapeCasts_S3072_S8x2x3x64)
        transposes_S8x2x3x64_S8x3x2x64_0_2_1_3) shapeCasts_S8x3x2x64_S8x384 i = Cert.Spec.bpOf bias i :=
  (b_r2 _ i).trans ((b_t1 _ i).trans ((b_r0 bias i).trans rfl))

theorem x_eq (c : Dev nD) : V1 m ρ c main_arg0 = m ((c.tc : Thread nD τ).loc main_arg0) :=
  (StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl

theorem wp_eq (c : Dev nD) : V1 m ρ c main_v4 = Cert.Spec.wpOf (m ((c.tc : Thread nD τ).loc main_arg1)) := by
  have e : (V1 m ρ c main_v4 : S8x1024x384.Idx → EReal) =
      truncf (F := Ideal) .bf16 (transpose S8x1024x384 [1, 0, 2] (shapeCast S1024x8x384 (transpose S1024x8x3x2x64 [0, 1, 3, 2, 4]
        (shapeCast S1024x8x2x3x64 (m ((c.tc : Thread nD τ).loc main_arg1) : S1024x3072.Idx → EReal) shapeCasts_S1024x3072_S1024x8x2x3x64)
        transposes_S1024x8x2x3x64_S1024x8x3x2x64_0_1_3_2_4) shapeCasts_S1024x8x3x2x64_S1024x8x384)
        transposes_S1024x8x384_S8x1024x384_1_0_2) bitsLt_bf16_f32 := by
    dsimp only [V1, W1, W0, hostOps0]; after_results; rfl
  exact e.trans (funext fun i => wp_chain _ i)

theorem bp_eq (c : Dev nD) : V1 m ρ c main_v7 = Cert.Spec.bpOf (m ((c.tc : Thread nD τ).loc main_arg2)) := by
  have e : (V1 m ρ c main_v7 : S8x384.Idx → EReal) =
      shapeCast S8x384 (transpose S8x3x2x64 [0, 2, 1, 3]
        (shapeCast S8x2x3x64 (m ((c.tc : Thread nD τ).loc main_arg2) : S3072.Idx → EReal) shapeCasts_S3072_S8x2x3x64)
        transposes_S8x2x3x64_S8x3x2x64_0_2_1_3) shapeCasts_S8x3x2x64_S8x384 := by
    dsimp only [V1, W1, W0, hostOps0]; after_results; rfl
  exact e.trans (funext fun i => bp_chain _ i)

end Cert.KernelIdeal.HostPre

end
-- ==== Proof.Stage1Pay.lean ====
/- The first stage's body at an index: each stored value is one column range of the tile's projection. -/
import proofs.«423137_j14577119002882_3_alg».proof.Proof.Gen.KernelIdeal.Skeleton
import proofs.«423137_j14577119002882_3_alg».proof.Proof.Spec
import Idealize.ShloMosaic.Lib.Pipeline.Value
import Idealize.ShloMosaic.Lib.ValueLayout
import Idealize.ShloMosaic.PureOps.Ideal.Laws

set_option maxRecDepth 16384
noncomputable section

namespace Cert.KernelIdeal.Stage1

open Cert.KernelIdeal Cert.KernelIdeal.Gen Idealize.ShloMosaic Idealize.ShloMosaic.ValueIdx

/-! ## The product's operand indices, axis by axis

The product contracts the left operand's axis 1 with the right operand's axis 0; the left operand keeps the result's
row on its axis 0, the right operand keeps the result's column on its axis 1. -/

private theorem lhs_y_0 (i : S512x384.Idx) (q : dot_S512x1024_S1024x384_S512x384_1_0_0_1_n_n.contr.Idx) :
    (dot_S512x1024_S1024x384_S512x384_1_0_0_1_n_n.lhsIdx i q 0).val = (i 0).val := by
  unfold DotDims.lhsIdx
  rw [dif_neg (show ¬(0 : Fin S512x1024.rank) ∈ dot_S512x1024_S1024x384_S512x384_1_0_0_1_n_n.lhsBatch by decide), dif_pos (show (0 : Fin S512x1024.rank) ∈ dot_S512x1024_S1024x384_S512x384_1_0_0_1_n_n.lhsNonContracting by decide)]
  rfl
private theorem lhs_y_1 (i : S512x384.Idx) (q : dot_S512x1024_S1024x384_S512x384_1_0_0_1_n_n.contr.Idx) :
    (dot_S512x1024_S1024x384_S512x384_1_0_0_1_n_n.lhsIdx i q 1).val = (q ⟨0, by decide⟩).val :=
  dot_S512x1024_S1024x384_S512x384_1_0_0_1_n_n.lhsIdx_val_of_single rfl i q
private theorem rhs_y_0 (i : S512x384.Idx) (q : dot_S512x1024_S1024x384_S512x384_1_0_0_1_n_n.contr.Idx) :
    (dot_S512x1024_S1024x384_S512x384_1_0_0_1_n_n.rhsIdx i q 0).val = (q ⟨0, by decide⟩).val :=
  dot_S512x1024_S1024x384_S512x384_1_0_0_1_n_n.rhsIdx_val_of_single rfl i q
private theorem rhs_y_1 (i : S512x384.Idx) (q : dot_S512x1024_S1024x384_S512x384_1_0_0_1_n_n.contr.Idx) :
    (dot_S512x1024_S1024x384_S512x384_1_0_0_1_n_n.rhsIdx i q 1).val = (i 1).val := by
  unfold DotDims.rhsIdx
  rw [dif_neg (show ¬(1 : Fin S1024x384.rank) ∈ dot_S512x1024_S1024x384_S512x384_1_0_0_1_n_n.rhsBatch by decide), dif_pos (show (1 : Fin S1024x384.rank) ∈ dot_S512x1024_S1024x384_S512x384_1_0_0_1_n_n.rhsNonContracting by decide)]
  rfl

/-- The 512×1024 by 1024×384 product into the zero accumulator, at row r and column c: the sum over the 1024
    contracted coordinates. -/
private theorem matmul_y_apply (a : FVec Ideal S512x1024 .bf16) (b : FVec Ideal S1024x384 .bf16) (r : Fin 512) (c : Fin 384) :
    matmul dot_S512x1024_S1024x384_S512x384_1_0_0_1_n_n none a b (constant (F := Ideal) S512x384 .f32 0x00000000#32) (ix2 r c)
      = ∑ k : Fin 1024, a (ix2 r k) * b (ix2 k c) := by
  simp only [matmul]
  rw [Ideal.matmul_constant_zero_apply, ← Equiv.sum_comp (ValueIdx.contrEquiv1 dot_S512x1024_S1024x384_S512x384_1_0_0_1_n_n 1024 rfl rfl).symm]
  refine Finset.sum_congr rfl fun k _ => ?_
  have hk := ValueIdx.contrEquiv1_symm_val dot_S512x1024_S1024x384_S512x384_1_0_0_1_n_n 1024 rfl rfl k
  have el : dot_S512x1024_S1024x384_S512x384_1_0_0_1_n_n.lhsIdx (ix2 r c) ((ValueIdx.contrEquiv1 dot_S512x1024_S1024x384_S512x384_1_0_0_1_n_n 1024 rfl rfl).symm k) = ix2 r k := funext fun ax => Fin.ext (by
    match ax with
    | ⟨0, _⟩ => exact lhs_y_0 _ _
    | ⟨1, _⟩ => exact (lhs_y_1 _ _).trans hk)
  have er : dot_S512x1024_S1024x384_S512x384_1_0_0_1_n_n.rhsIdx (ix2 r c) ((ValueIdx.contrEquiv1 dot_S512x1024_S1024x384_S512x384_1_0_0_1_n_n 1024 rfl rfl).symm k) = ix2 k c := funext fun ax => Fin.ext (by
    match ax with
    | ⟨0, _⟩ => exact (rhs_y_0 _ _).trans hk
    | ⟨1, _⟩ => exact rhs_y_1 _ _)
  rw [el, er]

/-- An `[a, b]` array cast to `[1, 1, a, b]` reads, at `(u, w, i, j)`, the operand at `(i, j)`: both positions are
    `i · b + j` in row-major order, the two unit coordinates contributing nothing. -/
private theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

variable (v0 : Vec Ideal S1x512x1024 .f32) (v4 : Vec Ideal S1x1024x384 .bf16) (v7 : Vec Ideal S1x384 .f32)

/-- The shared value y = x · W + bias at row r and column c is the tile's projection there. -/
private theorem pay_y (r : Fin 512) (c : Fin 384) :
    k0_pay2 v0 v4 v7 (ix2 r c) = Cert.Spec.tileProj v0 v4 v7 r c := by
  unfold k0_pay2 Cert.Spec.tileProj
  show matmul dot_S512x1024_S1024x384_S512x384_1_0_0_1_n_n none _ _ _ (ix2 r c) + broadcastTo S512x384 _ _ (ix2 r c) = _
  rw [matmul_y_apply, broadcastTo_1b_ab_apply, shapeCast_a_1a_apply, shapeCast_1a_a_apply]
  refine congrArg₂ (· + ·) (Finset.sum_congr rfl fun k _ => ?_) rfl
  rw [truncf_apply, shapeCast_1ab_ab_apply, shapeCast_1ab_ab_apply]

/-- The stored queries: columns 0‥127. -/
theorem pay_q (r : Fin 512) (e : Fin 128) :
    k0_pay3 v0 v4 v7 (ix4 (0 : Fin 1) (0 : Fin 1) r e) = Cert.Spec.tileProj v0 v4 v7 r ⟨e.val, by have := e.isLt; omega⟩ := by
  unfold k0_pay3
  show shapeCast S1x1x512x128 (truncf .bf16 (extractStridedSlice S512x128 ![0, 0] (k0_pay2 v0 v4 v7) _) _) _ (ix4 (0 : Fin 1) (0 : Fin 1) r e) = _
  rw [shapeCast_ab_11ab_apply, truncf_apply,
    slice2_axis1_apply 0 _ _ r e (⟨e.val, by have := e.isLt; omega⟩ : Fin 384) (Nat.zero_add _).symm, pay_y]

/-- The stored values: columns 256‥383. -/
theorem pay_v (r : Fin 512) (e : Fin 128) :
    k0_pay4 v0 v4 v7 (ix4 (0 : Fin 1) (0 : Fin 1) r e) = Cert.Spec.tileProj v0 v4 v7 r ⟨256 + e.val, by have := e.isLt; omega⟩ := by
  unfold k0_pay4
  show shapeCast S1x1x512x128 (truncf .bf16 (extractStridedSlice S512x128 ![0, 256] (k0_pay2 v0 v4 v7) _) _) _ (ix4 (0 : Fin 1) (0 : Fin 1) r e) = _
  rw [shapeCast_ab_11ab_apply, truncf_apply,
    slice2_axis1_apply 256 _ _ r e (⟨256 + e.val, by have := e.isLt; omega⟩ : Fin 384) rfl, pay_y]

/-- The first head's keys, transposed: columns 128‥191. -/
theorem pay_k0 (d : Fin 64) (r : Fin 512) :
    k0_pay5 v0 v4 v7 (ix4 (0 : Fin 1) (0 : Fin 1) d r) = Cert.Spec.tileProj v0 v4 v7 r ⟨128 + d.val, by have := d.isLt; omega⟩ := by
  unfold k0_pay5
  show shapeCast S1x1x64x512 (truncf .bf16 (transpose S64x512 [1, 0] (extractStridedSlice S512x64 ![0, 128] (k0_pay2 v0 v4 v7) _) _) _) _ (ix4 (0 : Fin 1) (0 : Fin 1) d r) = _
  rw [shapeCast_ab_11ab_apply, truncf_apply, transpose_ix2_apply,
    slice2_axis1_apply 128 _ _ r d (⟨128 + d.val, by have := d.isLt; omega⟩ : Fin 384) rfl, pay_y]

/-- The second head's keys, transposed: columns 192‥255. -/
theorem pay_k1 (d : Fin 64) (r : Fin 512) :
    k0_pay1 (k0_pay6 v0 v4 v7) (ix4 (0 : Fin 1) (0 : Fin 1) d r) = Cert.Spec.tileProj v0 v4 v7 r ⟨192 + d.val, by have := d.isLt; omega⟩ := by
  unfold k0_pay1 k0_pay6
  show shapeCast S1x1x64x512 (truncf .bf16 (transpose S64x512 [1, 0] (extractStridedSlice S512x64 ![0, 192] (k0_pay2 v0 v4 v7) _) _) _) _ (ix4 (0 : Fin 1) (0 : Fin 1) d r) = _
  rw [shapeCast_ab_11ab_apply, truncf_apply, transpose_ix2_apply,
    slice2_axis1_apply 192 _ _ r d (⟨192 + d.val, by have := d.isLt; omega⟩ : Fin 384) rfl, pay_y]

end Cert.KernelIdeal.Stage1

end
-- ==== Proof.Stage1.lean ====
/- The first stage's three result arrays: what its write-backs leave is the projection against the regrouped weights, laid out paired. -/
import proofs.«423137_j14577119002882_3_alg».proof.Proof.Gen.KernelIdeal.Frame
import proofs.«423137_j14577119002882_3_alg».proof.Proof.Spec
import proofs.«423137_j14577119002882_3_alg».proof.Proof.Stage1Pay
import Idealize.ShloMosaic.Lib.Pipeline.Value

set_option maxRecDepth 16384
noncomputable section

namespace Cert.KernelIdeal.Stage1

open Cert.KernelIdeal Cert.KernelIdeal.Gen Idealize.ShloMosaic Idealize.ShloMosaic.TcCoe Idealize.SL.Sem
open Idealize.ShloMosaic.Tactic Idealize.ShloMosaic.ValueIdx

/-! ## What the body leaves in each output block, as a function of the three blocks it is given

The body reads its row tile whole, and of the weights and the bias the slab of the point's head pair. -/

private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

section Pieces
variable {F : FTy → Type} [FloatOps F]

/-- The query block: one store of the whole block. -/
private theorem out3_eq (c : Dev nD) (i : grid0.Coords) (arg3 : Memref sig .tc .vmem S1x512x1024 .f32) (harg3 : arg3.IsWhole) (arg4 : Memref sig .tc .vmem S8x1024x384 .bf16) (harg4 : arg4.IsWhole) (arg5 : Memref sig .tc .vmem S8x384 .f32) (harg5 : arg5.IsWhole) (arg6 : Memref sig .tc .vmem S1x1x512x128 .bf16) (harg6 : arg6.IsWhole) (arg7 : Memref sig .tc .vmem S1x2x64x512 .bf16) (harg7 : arg7.IsWhole) (arg8 : Memref sig .tc .vmem S1x1x512x128 .bf16) (harg8 : arg8.IsWhole)
    (x0 : Vec F S1x512x1024 .f32) (x1 : Vec F S8x1024x384 .bf16) (x2 : Vec F S8x384 .f32) :
    out0_A_3 c i arg3 harg3 arg4 harg4 arg5 harg5 arg6 harg6 arg7 harg7 arg8 harg8 x0 x1 x2 = k0_pay3 x0 (View.ld x1 (Rect.unit (s := S8x1024x384) (k0_off1 i) S1x1024x384.size (k0_off1_inb i))) (View.ld x2 (Rect.unit (s := S8x384) (k0_off2 i) S1x384.size (k0_off2_inb i))) := by
  unfold out0_A_3
  rw [View.read_writes_eq_canon _ _ _ (cover0_A_3 c i arg3 harg3 arg4 harg4 arg5 harg5 arg6 harg6 arg7 harg7 arg8 harg8 x0 x1 x2)]
  unfold kernelRun0_A
  dsimp only
  sl_unfold_words
  rw [View.canon_unit_zero hz4]
  simp only [View.readAt_eq_ld, harg3.read_unread, harg4.read_unread, harg5.read_unread, View.ld_unit_zero (S := S1x512x1024) hz3]

/-- The value block: one store of the whole block. -/
private theorem out5_eq (c : Dev nD) (i : grid0.Coords) (arg3 : Memref sig .tc .vmem S1x512x1024 .f32) (harg3 : arg3.IsWhole) (arg4 : Memref sig .tc .vmem S8x1024x384 .bf16) (harg4 : arg4.IsWhole) (arg5 : Memref sig .tc .vmem S8x384 .f32) (harg5 : arg5.IsWhole) (arg6 : Memref sig .tc .vmem S1x1x512x128 .bf16) (harg6 : arg6.IsWhole) (arg7 : Memref sig .tc .vmem S1x2x64x512 .bf16) (harg7 : arg7.IsWhole) (arg8 : Memref sig .tc .vmem S1x1x512x128 .bf16) (harg8 : arg8.IsWhole)
    (x0 : Vec F S1x512x1024 .f32) (x1 : Vec F S8x1024x384 .bf16) (x2 : Vec F S8x384 .f32) :
    out0_A_5 c i arg3 harg3 arg4 harg4 arg5 harg5 arg6 harg6 arg7 harg7 arg8 harg8 x0 x1 x2 = k0_pay4 x0 (View.ld x1 (Rect.unit (s := S8x1024x384) (k0_off1 i) S1x1024x384.size (k0_off1_inb i))) (View.ld x2 (Rect.unit (s := S8x384) (k0_off2 i) S1x384.size (k0_off2_inb i))) := by
  unfold out0_A_5
  rw [View.read_writes_eq_canon _ _ _ (cover0_A_5 c i arg3 harg3 arg4 harg4 arg5 harg5 arg6 harg6 arg7 harg7 arg8 harg8 x0 x1 x2)]
  unfold kernelRun0_A
  dsimp only
  sl_unfold_words
  rw [View.canon_unit_zero hz4]
  simp only [View.readAt_eq_ld, harg3.read_unread, harg4.read_unread, harg5.read_unread, View.ld_unit_zero (S := S1x512x1024) hz3]

/-- The key block, first head of the pair: the earlier of the two stores, which the later one does not touch. -/
private theorem out4_head0 (c : Dev nD) (i : grid0.Coords) (arg3 : Memref sig .tc .vmem S1x512x1024 .f32) (harg3 : arg3.IsWhole) (arg4 : Memref sig .tc .vmem S8x1024x384 .bf16) (harg4 : arg4.IsWhole) (arg5 : Memref sig .tc .vmem S8x384 .f32) (harg5 : arg5.IsWhole) (arg6 : Memref sig .tc .vmem S1x1x512x128 .bf16) (harg6 : arg6.IsWhole) (arg7 : Memref sig .tc .vmem S1x2x64x512 .bf16) (harg7 : arg7.IsWhole) (arg8 : Memref sig .tc .vmem S1x1x512x128 .bf16) (harg8 : arg8.IsWhole)
    (x0 : Vec F S1x512x1024 .f32) (x1 : Vec F S8x1024x384 .bf16) (x2 : Vec F S8x384 .f32) (d : Fin 64) (r : Fin 512) :
    out0_A_4 c i arg3 harg3 arg4 harg4 arg5 harg5 arg6 harg6 arg7 harg7 arg8 harg8 x0 x1 x2 (ix4 (0 : Fin 1) (0 : Fin 2) d r) = k0_pay5 x0 (View.ld x1 (Rect.unit (s := S8x1024x384) (k0_off1 i) S1x1024x384.size (k0_off1_inb i))) (View.ld x2 (Rect.unit (s := S8x384) (k0_off2 i) S1x384.size (k0_off2_inb i))) (ix4 (0 : Fin 1) (0 : Fin 1) d r) := by
  unfold out0_A_4
  rw [View.read_writes_eq_canon _ _ _ (cover0_A_4 c i arg3 harg3 arg4 harg4 arg5 harg5 arg6 harg6 arg7 harg7 arg8 harg8 x0 x1 x2)]
  unfold kernelRun0_A
  dsimp only
  sl_unfold_words
  rw [View.canon_cons_of_not_mem _ _ (by
    rw [Rect.mem_set_unit]; intro h
    have h1 : (1 : Nat) ≤ 0 := (h 1).1
    omega)]
  have e : (ix4 (0 : Fin 1) (0 : Fin 2) d r : S1x2x64x512.Idx)
      = (Rect.unit (s := S1x2x64x512) ![0, 0, 0, 0] S1x1x64x512.size inb_S1x2x64x512_S1x1x64x512_0_0_0_0).emb (ix4 (0 : Fin 1) (0 : Fin 1) d r) :=
    funext fun a => Fin.ext (by
      match a with
      | ⟨0, _⟩ => rfl
      | ⟨1, _⟩ => rfl
      | ⟨2, _⟩ => show d.val = 0 + 1 * d.val; omega
      | ⟨3, _⟩ => show r.val = 0 + 1 * r.val; omega)
  rw [e, View.canon_cons_emb]
  simp only [View.readAt_eq_ld, harg3.read_unread, harg4.read_unread, harg5.read_unread, View.ld_unit_zero (S := S1x512x1024) hz3]

/-- The key block, second head of the pair: the later store. -/
private theorem out4_head1 (c : Dev nD) (i : grid0.Coords) (arg3 : Memref sig .tc .vmem S1x512x1024 .f32) (harg3 : arg3.IsWhole) (arg4 : Memref sig .tc .vmem S8x1024x384 .bf16) (harg4 : arg4.IsWhole) (arg5 : Memref sig .tc .vmem S8x384 .f32) (harg5 : arg5.IsWhole) (arg6 : Memref sig .tc .vmem S1x1x512x128 .bf16) (harg6 : arg6.IsWhole) (arg7 : Memref sig .tc .vmem S1x2x64x512 .bf16) (harg7 : arg7.IsWhole) (arg8 : Memref sig .tc .vmem S1x1x512x128 .bf16) (harg8 : arg8.IsWhole)
    (x0 : Vec F S1x512x1024 .f32) (x1 : Vec F S8x1024x384 .bf16) (x2 : Vec F S8x384 .f32) (d : Fin 64) (r : Fin 512) :
    out0_A_4 c i arg3 harg3 arg4 harg4 arg5 harg5 arg6 harg6 arg7 harg7 arg8 harg8 x0 x1 x2 (ix4 (0 : Fin 1) (1 : Fin 2) d r) = k0_pay1 (k0_pay6 x0 (View.ld x1 (Rect.unit (s := S8x1024x384) (k0_off1 i) S1x1024x384.size (k0_off1_inb i))) (View.ld x2 (Rect.unit (s := S8x384) (k0_off2 i) S1x384.size (k0_off2_inb i)))) (ix4 (0 : Fin 1) (0 : Fin 1) d r) := by
  unfold out0_A_4
  rw [View.read_writes_eq_canon _ _ _ (cover0_A_4 c i arg3 harg3 arg4 harg4 arg5 harg5 arg6 harg6 arg7 harg7 arg8 harg8 x0 x1 x2)]
  unfold kernelRun0_A
  dsimp only
  sl_unfold_words
  have e : (ix4 (0 : Fin 1) (1 : Fin 2) d r : S1x2x64x512.Idx)
      = (Rect.unit (s := S1x2x64x512) ![0, 1, 0, 0] S1x1x64x512.size inb_S1x2x64x512_S1x1x64x512_0_1_0_0).emb (ix4 (0 : Fin 1) (0 : Fin 1) d r) :=
    funext fun a => Fin.ext (by
      match a with
      | ⟨0, _⟩ => rfl
      | ⟨1, _⟩ => rfl
      | ⟨2, _⟩ => show d.val = 0 + 1 * d.val; omega
      | ⟨3, _⟩ => show r.val = 0 + 1 * r.val; omega)
  rw [e, View.canon_cons_emb]
  simp only [View.readAt_eq_ld, harg3.read_unread, harg4.read_unread, harg5.read_unread, View.ld_unit_zero (S := S1x512x1024) hz3]

end Pieces

/-! ## The grid: which batch, row tile and head pair a point works on, and where its blocks sit -/

/-- The point's batch, row tile and head pair. -/
private abbrev gb (t : Fin cfg0.N) : Fin 4 := ⟨(grid0.coords t 0).val, (grid0.coords t 0).isLt⟩
private abbrev gt (t : Fin cfg0.N) : Fin 4 := ⟨(grid0.coords t 1).val, (grid0.coords t 1).isLt⟩
private abbrev gp (t : Fin cfg0.N) : Fin 8 := ⟨(grid0.coords t 2).val, (grid0.coords t 2).isLt⟩

/-- Row r of row tile tt. -/
private abbrev row (tt : Fin 4) (r : Fin 512) : Fin 2048 := ⟨512 * tt.val + r.val, by have := tt.isLt; have := r.isLt; omega⟩

/-- The block indices of the six windows, decided over the grid. -/
private theorem idx0 : ∀ t : Fin cfg0.N, win0_0.index t (0 : Fin 3) = (grid0.coords t 0).val
    ∧ win0_0.index t (1 : Fin 3) = (grid0.coords t 1).val ∧ win0_0.index t (2 : Fin 3) = 0 :=
  (by decide +kernel : ∀ t : Fin grid0.N, _)
private theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
private theorem idx2 : ∀ t : Fin cfg0.N, win0_2.index t (0 : Fin 2) = 0 ∧ win0_2.index t (1 : Fin 2) = 0 :=
  (by decide +kernel : ∀ t : Fin grid0.N, _)
private theorem idx3 : ∀ t : Fin cfg0.N, win0_3.index t (0 : Fin 4) = (grid0.coords t 0).val ∧ win0_3.index t (1 : Fin 4) = (grid0.coords t 2).val
    ∧ win0_3.index t (2 : Fin 4) = (grid0.coords t 1).val ∧ win0_3.index t (3 : Fin 4) = 0 :=
  (by decide +kernel : ∀ t : Fin grid0.N, _)
private theorem idx4 : ∀ t : Fin cfg0.N, win0_4.index t (0 : Fin 4) = (grid0.coords t 0).val ∧ win0_4.index t (1 : Fin 4) = (grid0.coords t 2).val
    ∧ win0_4.index t (2 : Fin 4) = 0 ∧ win0_4.index t (3 : Fin 4) = (grid0.coords t 1).val :=
  (by decide +kernel : ∀ t : Fin grid0.N, _)
private theorem idx5 : ∀ t : Fin cfg0.N, win0_5.index t (0 : Fin 4) = (grid0.coords t 0).val ∧ win0_5.index t (1 : Fin 4) = (grid0.coords t 2).val
    ∧ win0_5.index t (2 : Fin 4) = (grid0.coords t 1).val ∧ win0_5.index t (3 : Fin 4) = 0 :=
  (by decide +kernel : ∀ t : Fin grid0.N, _)

/-- Every batch, row tile and head pair is some point's. -/
private theorem pt_onto : ∀ (b : Fin 4) (tt : Fin 4) (hp : Fin 8), ∃ t : Fin cfg0.N,
    (grid0.coords t 0).val = b.val ∧ (grid0.coords t 1).val = tt.val ∧ (grid0.coords t 2).val = hp.val :=
  (by decide +kernel : ∀ (b : Fin 4) (tt : Fin 4) (hp : Fin 8), ∃ t : Fin grid0.N, _)

/-! ## The slab of the weights and of the bias the body loads -/

/-- The loaded weights are the head pair's slab. -/
private theorem wslab_apply (wp : Vec Ideal S8x1024x384 .bf16) (i : grid0.Coords) (hp : Fin 8) (hi : (i 2).val = hp.val) (k : Fin 1024) (cc : Fin 384) :
    View.ld wp (Rect.unit (s := S8x1024x384) (k0_off1 i) S1x1024x384.size (k0_off1_inb i)) (ix3 (0 : Fin 1) k cc) = wp (ix3 hp k cc) := by
  have hk := k0_off1_eq i
  show wp ((Rect.unit (s := S8x1024x384) (k0_off1 i) S1x1024x384.size (k0_off1_inb i)).idx (ix3 (0 : Fin 1) k cc)) = wp (ix3 hp k cc)
  refine congrArg wp (funext fun a => Fin.ext ?_)
  match a with
  | ⟨0, _⟩ => show k0_off1 i (0 : Fin 3) + 1 * (0 : Fin 1).val = hp.val; rw [hk]; show (i 2).val + 1 * 0 = hp.val; omega
  | ⟨1, _⟩ => show k0_off1 i (1 : Fin 3) + 1 * k.val = k.val; rw [hk]; show 0 + 1 * k.val = k.val; omega
  | ⟨2, _⟩ => show k0_off1 i (2 : Fin 3) + 1 * cc.val = cc.val; rw [hk]; show 0 + 1 * cc.val = cc.val; omega

/-- The loaded bias is the head pair's row. -/
private theorem bslab_apply (bp : Vec Ideal S8x384 .f32) (i : grid0.Coords) (hp : Fin 8) (hi : (i 2).val = hp.val) (cc : Fin 384) :
    View.ld bp (Rect.unit (s := S8x384) (k0_off2 i) S1x384.size (k0_off2_inb i)) (ix2 (0 : Fin 1) cc) = bp (ix2 hp cc) := by
  have hk := k0_off2_eq i
  show bp ((Rect.unit (s := S8x384) (k0_off2 i) S1x384.size (k0_off2_inb i)).idx (ix2 (0 : Fin 1) cc)) = bp (ix2 hp cc)
  refine congrArg bp (funext fun a => Fin.ext ?_)
  match a with
  | ⟨0, _⟩ => show k0_off2 i (0 : Fin 2) + 1 * (0 : Fin 1).val = hp.val; rw [hk]; show (i 2).val + 1 * 0 = hp.val; omega
  | ⟨1, _⟩ => show k0_off2 i (1 : Fin 2) + 1 * cc.val = cc.val; rw [hk]; show 0 + 1 * cc.val = cc.val; omega

/-! ## One tile's projection is the array's, row by row -/

/-- With the tile's rows read off batch b at row tile tt, the tile's projection against the pair's slab is the
    projection of the whole array at that row. -/
private theorem tile_eq (x : Vec Ideal S4x2048x1024 .f32) (wp : Vec Ideal S8x1024x384 .bf16) (bp : Vec Ideal S8x384 .f32)
    (x0 : Vec Ideal S1x512x1024 .f32) (i : grid0.Coords) (b tt : Fin 4) (hp : Fin 8) (hi : (i 2).val = hp.val)
    (h0 : ∀ (r : Fin 512) (k : Fin 1024), x0 (ix3 (0 : Fin 1) r k) = x (ix3 b (row tt r) k)) (r : Fin 512) (cc : Fin 384) :
    Cert.Spec.tileProj x0 (View.ld wp (Rect.unit (s := S8x1024x384) (k0_off1 i) S1x1024x384.size (k0_off1_inb i))) (View.ld bp (Rect.unit (s := S8x384) (k0_off2 i) S1x384.size (k0_off2_inb i))) r cc = Cert.Spec.projP x wp bp b (row tt r) hp cc := by
  unfold Cert.Spec.tileProj Cert.Spec.projP
  rw [bslab_apply bp i hp hi cc]
  refine congrArg (· + bp (ix2 hp cc)) (Finset.sum_congr rfl fun k _ => ?_)
  rw [h0 r k, wslab_apply wp i hp hi k cc]

/-- The projection at equal coordinates. -/
private theorem projP_congr (x : Vec Ideal S4x2048x1024 .f32) (wp : Vec Ideal S8x1024x384 .bf16) (bp : Vec Ideal S8x384 .f32)
    {b b' : Fin 4} {t t' : Fin 2048} {hp hp' : Fin 8} {cc cc' : Fin 384}
    (hb : b.val = b'.val) (ht : t.val = t'.val) (hh : hp.val = hp'.val) (hc : cc.val = cc'.val) :
    Cert.Spec.projP x wp bp b t hp cc = Cert.Spec.projP x wp bp b' t' hp' cc' := by
  obtain rfl := Fin.ext hb; obtain rfl := Fin.ext ht; obtain rfl := Fin.ext hh; obtain rfl := Fin.ext hc; rfl

/-- A block of queries: element j of the block is the query array at the array index y over it. -/
private theorem q_block (x : Vec Ideal S4x2048x1024 .f32) (wp : Vec Ideal S8x1024x384 .bf16) (bp : Vec Ideal S8x384 .f32)
    (x0 : Vec Ideal S1x512x1024 .f32) (x1 : Vec Ideal S8x1024x384 .bf16) (x2 : Vec Ideal S8x384 .f32)
    (i : grid0.Coords) (b tt : Fin 4) (hp : Fin 8) (hi : (i 2).val = hp.val)
    (h0 : ∀ (r : Fin 512) (k : Fin 1024), x0 (ix3 (0 : Fin 1) r k) = x (ix3 b (row tt r) k)) (h1 : x1 = wp) (h2 : x2 = bp)
    (j : S1x1x512x128.Idx) (y : S4x8x2048x128.Idx)
    (y0 : (y 0).val = b.val) (y1 : (y 1).val = hp.val) (y2 : (y 2).val = 512 * tt.val + (j 2).val) (y3 : (y 3).val = (j 3).val) :
    k0_pay3 x0 (View.ld x1 (Rect.unit (s := S8x1024x384) (k0_off1 i) S1x1024x384.size (k0_off1_inb i))) (View.ld x2 (Rect.unit (s := S8x384) (k0_off2 i) S1x384.size (k0_off2_inb i))) j = Cert.Spec.qArr x wp bp y := by
  subst h1 h2
  obtain ⟨a0, a1, r, e, rfl⟩ : ∃ (a0 : Fin 1) (a1 : Fin 1) (r : Fin 512) (e : Fin 128), j = ix4 a0 a1 r e := ⟨j 0, j 1, j 2, j 3, eq_ix4 j⟩
  obtain rfl : a0 = 0 := Subsingleton.elim _ _
  obtain rfl : a1 = 0 := Subsingleton.elim _ _
  have y2' : (y 2).val = 512 * tt.val + r.val := y2
  have y3' : (y 3).val = e.val := y3
  rw [pay_q, tile_eq x _ _ x0 i b tt hp hi h0]
  exact projP_congr x _ _ (by show b.val = (y 0).val; omega) (by show 512 * tt.val + r.val = (y 2).val; omega)
    (by show hp.val = (y 1).val; omega) (by show e.val = (y 3).val; omega)

/-- A block of values: the same against columns 256‥383. -/
private theorem v_block (x : Vec Ideal S4x2048x1024 .f32) (wp : Vec Ideal S8x1024x384 .bf16) (bp : Vec Ideal S8x384 .f32)
    (x0 : Vec Ideal S1x512x1024 .f32) (x1 : Vec Ideal S8x1024x384 .bf16) (x2 : Vec Ideal S8x384 .f32)
    (i : grid0.Coords) (b tt : Fin 4) (hp : Fin 8) (hi : (i 2).val = hp.val)
    (h0 : ∀ (r : Fin 512) (k : Fin 1024), x0 (ix3 (0 : Fin 1) r k) = x (ix3 b (row tt r) k)) (h1 : x1 = wp) (h2 : x2 = bp)
    (j : S1x1x512x128.Idx) (y : S4x8x2048x128.Idx)
    (y0 : (y 0).val = b.val) (y1 : (y 1).val = hp.val) (y2 : (y 2).val = 512 * tt.val + (j 2).val) (y3 : (y 3).val = (j 3).val) :
    k0_pay4 x0 (View.ld x1 (Rect.unit (s := S8x1024x384) (k0_off1 i) S1x1024x384.size (k0_off1_inb i))) (View.ld x2 (Rect.unit (s := S8x384) (k0_off2 i) S1x384.size (k0_off2_inb i))) j = Cert.Spec.vArr x wp bp y := by
  subst h1 h2
  obtain ⟨a0, a1, r, e, rfl⟩ : ∃ (a0 : Fin 1) (a1 : Fin 1) (r : Fin 512) (e : Fin 128), j = ix4 a0 a1 r e := ⟨j 0, j 1, j 2, j 3, eq_ix4 j⟩
  obtain rfl : a0 = 0 := Subsingleton.elim _ _
  obtain rfl : a1 = 0 := Subsingleton.elim _ _
  have y2' : (y 2).val = 512 * tt.val + r.val := y2
  have y3' : (y 3).val = e.val := y3
  rw [pay_v, tile_eq x _ _ x0 i b tt hp hi h0]
  exact projP_congr x _ _ (by show b.val = (y 0).val; omega) (by show 512 * tt.val + r.val = (y 2).val; omega)
    (by show hp.val = (y 1).val; omega) (by show 256 + e.val = 256 + (y 3).val; omega)

/-- A block of keys (two heads, transposed): element (h, d, r) of a block o that holds the first head's keys under
    h = 0 and the second's under h = 1 is the key array at head 2·hp + h, lane d, row 512·tt + r. -/
private theorem k_block (x : Vec Ideal S4x2048x1024 .f32) (wp : Vec Ideal S8x1024x384 .bf16) (bp : Vec Ideal S8x384 .f32)
    (x0 : Vec Ideal S1x512x1024 .f32) (x1 : Vec Ideal S8x1024x384 .bf16) (x2 : Vec Ideal S8x384 .f32)
    (i : grid0.Coords) (b tt : Fin 4) (hp : Fin 8) (hi : (i 2).val = hp.val)
    (h0 : ∀ (r : Fin 512) (k : Fin 1024), x0 (ix3 (0 : Fin 1) r k) = x (ix3 b (row tt r) k)) (h1 : x1 = wp) (h2 : x2 = bp)
    (o : Vec Ideal S1x2x64x512 .bf16)
    (ho0 : ∀ (d : Fin 64) (r : Fin 512), o (ix4 (0 : Fin 1) (0 : Fin 2) d r) = k0_pay5 x0 (View.ld x1 (Rect.unit (s := S8x1024x384) (k0_off1 i) S1x1024x384.size (k0_off1_inb i))) (View.ld x2 (Rect.unit (s := S8x384) (k0_off2 i) S1x384.size (k0_off2_inb i))) (ix4 (0 : Fin 1) (0 : Fin 1) d r))
    (ho1 : ∀ (d : Fin 64) (r : Fin 512), o (ix4 (0 : Fin 1) (1 : Fin 2) d r) = k0_pay1 (k0_pay6 x0 (View.ld x1 (Rect.unit (s := S8x1024x384) (k0_off1 i) S1x1024x384.size (k0_off1_inb i))) (View.ld x2 (Rect.unit (s := S8x384) (k0_off2 i) S1x384.size (k0_off2_inb i)))) (ix4 (0 : Fin 1) (0 : Fin 1) d r))
    (j : S1x2x64x512.Idx) (y : S4x16x64x2048.Idx)
    (y0 : (y 0).val = b.val) (y1 : (y 1).val = 2 * hp.val + (j 1).val) (y2 : (y 2).val = (j 2).val) (y3 : (y 3).val = 512 * tt.val + (j 3).val) :
    o j = Cert.Spec.kArr x wp bp y := by
  subst h1 h2
  obtain ⟨a0, h, d, r, rfl⟩ : ∃ (a0 : Fin 1) (h : Fin 2) (d : Fin 64) (r : Fin 512), j = ix4 a0 h d r := ⟨j 0, j 1, j 2, j 3, eq_ix4 j⟩
  obtain rfl : a0 = 0 := Subsingleton.elim _ _
  have y1' : (y 1).val = 2 * hp.val + h.val := y1
  have y2' : (y 2).val = d.val := y2
  have y3' : (y 3).val = 512 * tt.val + r.val := y3
  have hh : h = 0 ∨ h = 1 := by
    have := h.isLt
    rcases Nat.lt_or_ge h.val 1 with h' | h'
    · left; exact Fin.ext (by show h.val = 0; omega)
    · right; exact Fin.ext (by show h.val = 1; omega)
  rcases hh with rfl | rfl
  · have y1'' : (y 1).val = 2 * hp.val + 0 := y1'
    rw [ho0 d r, pay_k0, tile_eq x _ _ x0 i b tt hp hi h0]
    exact projP_congr x _ _ (by show b.val = (y 0).val; omega) (by show 512 * tt.val + r.val = (y 3).val; omega)
      (by show hp.val = (y 1).val / 2; omega) (by show 128 + d.val = 128 + (y 1).val % 2 * 64 + (y 2).val; omega)
  · have y1'' : (y 1).val = 2 * hp.val + 1 := y1'
    rw [ho1 d r, pay_k1, tile_eq x _ _ x0 i b tt hp hi h0]
    exact projP_congr x _ _ (by show b.val = (y 0).val; omega) (by show 512 * tt.val + r.val = (y 3).val; omega)
      (by show hp.val = (y 1).val / 2; omega) (by show 192 + d.val = 128 + (y 1).val % 2 * 64 + (y 2).val; omega)

variable (V : (c : Dev nD) → (b : Ref sig .tc) → Buf (Elt Ideal) ((c : Thread nD τ).loc b))

/-! ## The three input blocks of a point, read off the arrays as the stage finds them -/

/-- The row tile: row r of the block is row 512·tt + r of batch b. -/
private theorem xblk_read (c : Dev nD) (t : Fin cfg0.N) (r : Fin 512) (k : Fin 1024) :
    (iblk0 V c 0 t : Vec Ideal S1x512x1024 .f32) (ix3 (0 : Fin 1) r k)
      = (V c main_arg0 : Vec Ideal S4x2048x1024 .f32) (ix3 (gb t) (row (gt t) r) k) := by
  obtain ⟨e0, e1, e2⟩ := idx0 t
  show V c main_arg0 (((cfg0.win 0).blk t).view.emb (ix3 (0 : Fin 1) r k)) = V c main_arg0 (ix3 (gb t) (row (gt t) r) k)
  refine congrArg (V c main_arg0) (funext fun a => Fin.ext ?_)
  match a with
  | ⟨0, _⟩ => show win0_0.index t (0 : Fin 3) * 1 + 1 * (0 : Fin 1).val = (grid0.coords t 0).val; rw [e0]; show (grid0.coords t 0).val * 1 + 1 * 0 = (grid0.coords t 0).val; omega
  | ⟨1, _⟩ => show win0_0.index t (1 : Fin 3) * 512 + 1 * r.val = 512 * (grid0.coords t 1).val + r.val; rw [e1]; omega
  | ⟨2, _⟩ => show win0_0.index t (2 : Fin 3) * 1024 + 1 * k.val = k.val; rw [e2]; omega

/-- The weights' block is the whole regrouped array. -/
private theorem wblk_read (c : Dev nD) (t : Fin cfg0.N) :
    (iblk0 V c 1 t : Vec Ideal S8x1024x384 .bf16) = (V c main_v4 : Vec Ideal S8x1024x384 .bf16) := by
  obtain ⟨e0, e1, e2⟩ := idx1 t
  funext j
  show V c main_v4 (((cfg0.win 1).blk t).view.emb j) = V c main_v4 j
  refine congrArg (V c main_v4) (funext fun a => Fin.ext ?_)
  match a with
  | ⟨0, _⟩ => show win0_1.index t (0 : Fin 3) * 8 + 1 * (j 0).val = (j 0).val; rw [e0]; omega
  | ⟨1, _⟩ => show win0_1.index t (1 : Fin 3) * 1024 + 1 * (j 1).val = (j 1).val; rw [e1]; omega
  | ⟨2, _⟩ => show win0_1.index t (2 : Fin 3) * 384 + 1 * (j 2).val = (j 2).val; rw [e2]; omega

/-- The bias's block is the whole regrouped bias. -/
private theorem bblk_read (c : Dev nD) (t : Fin cfg0.N) :
    (iblk0 V c 2 t : Vec Ideal S8x384 .f32) = (V c main_v7 : Vec Ideal S8x384 .f32) := by
  obtain ⟨e0, e1⟩ := idx2 t
  funext j
  show V c main_v7 (((cfg0.win 2).blk t).view.emb j) = V c main_v7 j
  refine congrArg (V c main_v7) (funext fun a => Fin.ext ?_)
  match a with
  | ⟨0, _⟩ => show win0_2.index t (0 : Fin 2) * 8 + 1 * (j 0).val = (j 0).val; rw [e0]; omega
  | ⟨1, _⟩ => show win0_2.index t (1 : Fin 2) * 384 + 1 * (j 1).val = (j 1).val; rw [e1]; omega

/-! ## What a point writes back is its block of the array's closed form -/

private theorem flushed3_eq (c : Dev nD) (t : Fin cfg0.N) :
    (dat0 V c).flushed 3 t = ((cfg0.win 3).blk t).view.read (Elt Ideal) (Cert.Spec.qArr (V c main_arg0) (V c main_v4) (V c main_v7)) := by
  show (cfg0.win 3).cut (grid0.coords t) ((dat0 V c).after 3 t) = _
  rw [after0_3]
  unfold outsAt0
  dsimp only
  rw [out3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t)]
  obtain ⟨e0, e1, e2, e3⟩ := idx3 t
  funext j
  exact q_block (V c main_arg0) (V c main_v4) (V c main_v7) (iblk0 V c 0 t) (iblk0 V c 1 t) (iblk0 V c 2 t) (grid0.coords t) (gb t) (gt t) (gp t) rfl
    (xblk_read V c t) (wblk_read V c t) (bblk_read V c t) j (((cfg0.win 3).blk t).view.emb j)
    (by show win0_3.index t (0 : Fin 4) * 1 + 1 * (j 0).val = (grid0.coords t 0).val; have : (j 0).val < 1 := (j 0).isLt; rw [e0]; omega)
    (by show win0_3.index t (1 : Fin 4) * 1 + 1 * (j 1).val = (grid0.coords t 2).val; have : (j 1).val < 1 := (j 1).isLt; rw [e1]; omega)
    (by show win0_3.index t (2 : Fin 4) * 512 + 1 * (j 2).val = 512 * (grid0.coords t 1).val + (j 2).val; rw [e2]; omega)
    (by show win0_3.index t (3 : Fin 4) * 128 + 1 * (j 3).val = (j 3).val; rw [e3]; omega)

private theorem flushed5_eq (c : Dev nD) (t : Fin cfg0.N) :
    (dat0 V c).flushed 5 t = ((cfg0.win 5).blk t).view.read (Elt Ideal) (Cert.Spec.vArr (V c main_arg0) (V c main_v4) (V c main_v7)) := by
  show (cfg0.win 5).cut (grid0.coords t) ((dat0 V c).after 5 t) = _
  rw [after0_5]
  unfold outsAt0
  dsimp only
  rw [out5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t)]
  obtain ⟨e0, e1, e2, e3⟩ := idx5 t
  funext j
  exact v_block (V c main_arg0) (V c main_v4) (V c main_v7) (iblk0 V c 0 t) (iblk0 V c 1 t) (iblk0 V c 2 t) (grid0.coords t) (gb t) (gt t) (gp t) rfl
    (xblk_read V c t) (wblk_read V c t) (bblk_read V c t) j (((cfg0.win 5).blk t).view.emb j)
    (by show win0_5.index t (0 : Fin 4) * 1 + 1 * (j 0).val = (grid0.coords t 0).val; have : (j 0).val < 1 := (j 0).isLt; rw [e0]; omega)
    (by show win0_5.index t (1 : Fin 4) * 1 + 1 * (j 1).val = (grid0.coords t 2).val; have : (j 1).val < 1 := (j 1).isLt; rw [e1]; omega)
    (by show win0_5.index t (2 : Fin 4) * 512 + 1 * (j 2).val = 512 * (grid0.coords t 1).val + (j 2).val; rw [e2]; omega)
    (by show win0_5.index t (3 : Fin 4) * 128 + 1 * (j 3).val = (j 3).val; rw [e3]; omega)

private theorem flushed4_eq (c : Dev nD) (t : Fin cfg0.N) :
    (dat0 V c).flushed 4 t = ((cfg0.win 4).blk t).view.read (Elt Ideal) (Cert.Spec.kArr (V c main_arg0) (V c main_v4) (V c main_v7)) := by
  show (cfg0.win 4).cut (grid0.coords t) ((dat0 V c).after 4 t) = _
  rw [after0_4]
  unfold outsAt0
  dsimp only
  obtain ⟨e0, e1, e2, e3⟩ := idx4 t
  funext j
  exact k_block (V c main_arg0) (V c main_v4) (V c main_v7) (iblk0 V c 0 t) (iblk0 V c 1 t) (iblk0 V c 2 t) (grid0.coords t) (gb t) (gt t) (gp t) rfl
    (xblk_read V c t) (wblk_read V c t) (bblk_read V c t)
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t))
    (out4_head0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t))
    (out4_head1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t))
    j (((cfg0.win 4).blk t).view.emb j)
    (by show win0_4.index t (0 : Fin 4) * 1 + 1 * (j 0).val = (grid0.coords t 0).val; have : (j 0).val < 1 := (j 0).isLt; rw [e0]; omega)
    (by show win0_4.index t (1 : Fin 4) * 2 + 1 * (j 1).val = 2 * (grid0.coords t 2).val + (j 1).val; rw [e1]; omega)
    (by show win0_4.index t (2 : Fin 4) * 64 + 1 * (j 2).val = (j 2).val; rw [e2]; omega)
    (by show win0_4.index t (3 : Fin 4) * 512 + 1 * (j 3).val = 512 * (grid0.coords t 1).val + (j 3).val; rw [e3]; omega)

/-! ## The blocks tile each array -/

private theorem mem_blk3 (t : Fin cfg0.N) (i : S4x8x2048x128.Idx) :
    i ∈ ((cfg0.win 3).blk t).view.set ↔ ∀ a : Fin 4, win0_3.index t a * S1x1x512x128.size a ≤ (i a).val ∧ (i a).val < win0_3.index t a * S1x1x512x128.size a + S1x1x512x128.size a := by
  show i ∈ ((View.whole main_v8_0).slice (win0_3.rect t)).set ↔ _
  rw [View.set_slice_whole, Rect.mem_set_unit]
  exact Iff.rfl

private theorem mem_blk4 (t : Fin cfg0.N) (i : S4x16x64x2048.Idx) :
    i ∈ ((cfg0.win 4).blk t).view.set ↔ ∀ a : Fin 4, win0_4.index t a * S1x2x64x512.size a ≤ (i a).val ∧ (i a).val < win0_4.index t a * S1x2x64x512.size a + S1x2x64x512.size a := by
  show i ∈ ((View.whole main_v8_1).slice (win0_4.rect t)).set ↔ _
  rw [View.set_slice_whole, Rect.mem_set_unit]
  exact Iff.rfl

private theorem mem_blk5 (t : Fin cfg0.N) (i : S4x8x2048x128.Idx) :
    i ∈ ((cfg0.win 5).blk t).view.set ↔ ∀ a : Fin 4, win0_5.index t a * S1x1x512x128.size a ≤ (i a).val ∧ (i a).val < win0_5.index t a * S1x1x512x128.size a + S1x1x512x128.size a := by
  show i ∈ ((View.whole main_v8_2).slice (win0_5.rect t)).set ↔ _
  rw [View.set_slice_whole, Rect.mem_set_unit]
  exact Iff.rfl

/-- Row i₂ of pair i₁ of batch i₀ lies in the block of the point (i₀, i₂ / 512, i₁). -/
private theorem cover3 (i : S4x8x2048x128.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 2048 := (i 2).isLt
  have h3 : (i 3).val < 128 := (i 3).isLt
  obtain ⟨t, c0, c1, c2⟩ := pt_onto ⟨(i 0).val, h0⟩ ⟨(i 2).val / 512, by omega⟩ ⟨(i 1).val, h1⟩
  have c0' : (grid0.coords t 0).val = (i 0).val := c0
  have c1' : (grid0.coords t 1).val = (i 2).val / 512 := c1
  have c2' : (grid0.coords t 2).val = (i 1).val := c2
  obtain ⟨e0, e1, e2, e3⟩ := idx3 t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; rw [e0]; omega
  | ⟨1, _⟩ => show win0_3.index t (1 : Fin 4) * 1 ≤ (i 1).val ∧ (i 1).val < win0_3.index t (1 : Fin 4) * 1 + 1; rw [e1]; omega
  | ⟨2, _⟩ => show win0_3.index t (2 : Fin 4) * 512 ≤ (i 2).val ∧ (i 2).val < win0_3.index t (2 : Fin 4) * 512 + 512; rw [e2]; omega
  | ⟨3, _⟩ => show win0_3.index t (3 : Fin 4) * 128 ≤ (i 3).val ∧ (i 3).val < win0_3.index t (3 : Fin 4) * 128 + 128; rw [e3]; omega

private theorem cover5 (i : S4x8x2048x128.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 2048 := (i 2).isLt
  have h3 : (i 3).val < 128 := (i 3).isLt
  obtain ⟨t, c0, c1, c2⟩ := pt_onto ⟨(i 0).val, h0⟩ ⟨(i 2).val / 512, by omega⟩ ⟨(i 1).val, h1⟩
  have c0' : (grid0.coords t 0).val = (i 0).val := c0
  have c1' : (grid0.coords t 1).val = (i 2).val / 512 := c1
  have c2' : (grid0.coords t 2).val = (i 1).val := c2
  obtain ⟨e0, e1, e2, e3⟩ := idx5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 1 ≤ (i 1).val ∧ (i 1).val < win0_5.index t (1 : Fin 4) * 1 + 1; rw [e1]; omega
  | ⟨2, _⟩ => show win0_5.index t (2 : Fin 4) * 512 ≤ (i 2).val ∧ (i 2).val < win0_5.index t (2 : Fin 4) * 512 + 512; rw [e2]; omega
  | ⟨3, _⟩ => show win0_5.index t (3 : Fin 4) * 128 ≤ (i 3).val ∧ (i 3).val < win0_5.index t (3 : Fin 4) * 128 + 128; rw [e3]; omega

/-- Row i₃ of head i₁ of batch i₀ lies in the block of the point (i₀, i₃ / 512, i₁ / 2). -/
private theorem cover4 (i : S4x16x64x2048.Idx) : ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 64 := (i 2).isLt
  have h3 : (i 3).val < 2048 := (i 3).isLt
  obtain ⟨t, c0, c1, c2⟩ := pt_onto ⟨(i 0).val, h0⟩ ⟨(i 3).val / 512, by omega⟩ ⟨(i 1).val / 2, by omega⟩
  have c0' : (grid0.coords t 0).val = (i 0).val := c0
  have c1' : (grid0.coords t 1).val = (i 3).val / 512 := c1
  have c2' : (grid0.coords t 2).val = (i 1).val / 2 := c2
  obtain ⟨e0, e1, e2, e3⟩ := idx4 t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [e0]; omega
  | ⟨1, _⟩ => show win0_4.index t (1 : Fin 4) * 2 ≤ (i 1).val ∧ (i 1).val < win0_4.index t (1 : Fin 4) * 2 + 2; rw [e1]; omega
  | ⟨2, _⟩ => show win0_4.index t (2 : Fin 4) * 64 ≤ (i 2).val ∧ (i 2).val < win0_4.index t (2 : Fin 4) * 64 + 64; rw [e2]; omega
  | ⟨3, _⟩ => show win0_4.index t (3 : Fin 4) * 512 ≤ (i 3).val ∧ (i 3).val < win0_4.index t (3 : Fin 4) * 512 + 512; rw [e3]; omega

/-! ## The three arrays after the stage -/

theorem q_eq (c : Dev nD) :
    (dat0 V c).arrAt 3 cfg0.N = Cert.Spec.qArr (V c main_arg0) (V c main_v4) (V c main_v7) := by
  exact (dat0 V c).arrAt_eq_of_cover 3 (Cert.Spec.qArr (V c main_arg0) (V c main_v4) (V c main_v7)) (fun t _ => flushed3_eq V c t) cover3

theorem k_eq (c : Dev nD) :
    (dat0 V c).arrAt 4 cfg0.N = Cert.Spec.kArr (V c main_arg0) (V c main_v4) (V c main_v7) := by
  exact (dat0 V c).arrAt_eq_of_cover 4 (Cert.Spec.kArr (V c main_arg0) (V c main_v4) (V c main_v7)) (fun t _ => flushed4_eq V c t) cover4

theorem v_eq (c : Dev nD) :
    (dat0 V c).arrAt 5 cfg0.N = Cert.Spec.vArr (V c main_arg0) (V c main_v4) (V c main_v7) := by
  exact (dat0 V c).arrAt_eq_of_cover 5 (Cert.Spec.vArr (V c main_arg0) (V c main_v4) (V c main_v7)) (fun t _ => flushed5_eq V c t) cover5

end Cert.KernelIdeal.Stage1

end
-- ==== Proof.Stage2Pay.lean ====
/- The second stage's body at an index: each of the two stored halves is one head's attention row. -/
import proofs.«423137_j14577119002882_3_alg».proof.Proof.Gen.KernelIdeal.Frame
import proofs.«423137_j14577119002882_3_alg».proof.Proof.Spec
import Idealize.ShloMosaic.Lib.Pipeline.Value
import Idealize.ShloMosaic.Lib.ValueLayout
import Idealize.ShloMosaic.PureOps.Ideal.Laws

set_option maxRecDepth 16384
noncomputable section

namespace Cert.KernelIdeal.Stage2

open Cert.KernelIdeal Cert.KernelIdeal.Gen Idealize.ShloMosaic Idealize.ShloMosaic.ValueIdx

/-! ## The two products read at an index -/

private theorem lhs_qk_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
private theorem lhs_qk_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
private theorem rhs_qk_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
private theorem rhs_qk_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The query–key product into the zero accumulator at (r, j): the sum over the 64 lanes. -/
private theorem qk_apply (Q : FVec Ideal S512x64 .bf16) (Kt : FVec Ideal S64x2048 .bf16) (r : Fin 512) (j : Fin 2048) :
    matmul dot_S512x64_S64x2048_S512x2048_1_0_0_1_n_n none Q Kt (constant (F := Ideal) S512x2048 .f32 0x00000000#32) (ix2 r j)
      = ∑ d : Fin 64, Q (ix2 r d) * Kt (ix2 d j) := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 r j) ((ValueIdx.contrEquiv1 dot_S512x64_S64x2048_S512x2048_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S512x64_S64x2048_S512x2048_1_0_0_1_n_n.rhsIdx (ix2 r j) ((ValueIdx.contrEquiv1 dot_S512x64_S64x2048_S512x2048_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

private theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
private theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
private theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
private theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weight–value product into the zero accumulator at (r, d): the sum over the 2048 keys. -/
private theorem pv_apply (P : FVec Ideal S512x2048 .bf16) (V : FVec Ideal S2048x64 .bf16) (r : Fin 512) (d : Fin 64) :
    matmul dot_S512x2048_S2048x64_S512x64_1_0_0_1_n_n none P V (constant (F := Ideal) S512x64 .f32 0x00000000#32) (ix2 r d)
      = ∑ j : Fin 2048, P (ix2 r j) * V (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## A row statistic kept as a column and spread over the row -/

/-- A vector cast to a column reads, at (i, u), the vector at i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over b lanes reads, at (i, c), the column at i. -/
private theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The row maximum of a 512 × 2048 matrix at row r: the fold of max from −∞ over the row. -/
private theorem rowMax_apply (s : FVec Ideal S512x2048 .f32) (r : Fin 512) :
    multiReduction .maximumf [1] S512 s 0xFF800000#32 reduces_S512x2048_S512 (.inl rfl) rfl (ix1 r)
      = (Finset.univ : Finset (Fin 2048)).fold max (Ideal.ofBits .f32 0xFF800000#32) (fun j => s (ix2 r j)) := by
  refine (Ideal.multiReduction_maximumf_single s _ reduces_S512x2048_S512 _ _ (ix1 r)).trans ?_
  have e : (s ∘ reduces_S512x2048_S512.lift (ix1 r)) = fun j : Fin 2048 => s (ix2 r j) :=
    funext fun j => congrArg s (funext fun c => Fin.ext (by
      match c with
      | ⟨0, _⟩ => rfl
      | ⟨1, _⟩ => rfl))
  exact congrArg (fun f => (Finset.univ : Finset (Fin 2048)).fold max (Ideal.ofBits .f32 0xFF800000#32) f) e

/-- The row sum of a 512 × 2048 matrix at row r. -/
private theorem rowSum_apply (p : FVec Ideal S512x2048 .f32) (r : Fin 512) :
    multiReduction .add [1] S512 p 0x00000000#32 reduces_S512x2048_S512 (.inl rfl) rfl (ix1 r)
      = ∑ j : Fin 2048, p (ix2 r j) := by
  refine (Ideal.multiReduction_add_single p _ reduces_S512x2048_S512 _ _ (ix1 r)).trans ?_
  exact Finset.sum_congr rfl fun j _ => congrArg p (funext fun c => Fin.ext (by
      match c with
      | ⟨0, _⟩ => rfl
      | ⟨1, _⟩ => rfl))

/-! ## One head's chain: scores, weights, weighted values over the row sum -/

/-- The scaled scores of a query tile against the transposed keys. -/
private def scoresOf (Q : FVec Ideal S512x64 .bf16) (Kt : FVec Ideal S64x2048 .bf16) : FVec Ideal S512x2048 .f32 :=
  mulf (matmul dot_S512x64_S64x2048_S512x2048_1_0_0_1_n_n none Q Kt (constant (F := Ideal) S512x2048 .f32 0x00000000#32))
    (broadcast S512x2048 (Scalar.ofBits (F := Ideal) .f32 0x3E000000#32))

/-- exp (s − row maximum), the maximum kept as a column and spread over the row. -/
private def weightsOf (s : FVec Ideal S512x2048 .f32) : FVec Ideal S512x2048 .f32 :=
  exp (subf s (broadcastTo S512x2048
    (shapeCast S512x1 (multiReduction .maximumf [1] S512 s 0xFF800000#32 reduces_S512x2048_S512 (.inl rfl) rfl) shapeCasts_S512_S512x1)
    broadcasts_S512x1_S512x2048))

/-- The weights times the values, divided by the weights' row sum. -/
private def finishOf (p : FVec Ideal S512x2048 .f32) (V : FVec Ideal S2048x64 .bf16) : FVec Ideal S512x64 .f32 :=
  divf (matmul dot_S512x2048_S2048x64_S512x64_1_0_0_1_n_n none (truncf .bf16 p bitsLt_bf16_f32) V (constant (F := Ideal) S512x64 .f32 0x00000000#32))
    (broadcastTo S512x64
      (shapeCast S512x1 (multiReduction .add [1] S512 p 0x00000000#32 reduces_S512x2048_S512 (.inl rfl) rfl) shapeCasts_S512_S512x1)
      broadcasts_S512x1_S512x64)

private theorem scoresOf_apply (Q : FVec Ideal S512x64 .bf16) (Kt : FVec Ideal S64x2048 .bf16) (r : Fin 512) (j : Fin 2048) :
    scoresOf Q Kt (ix2 r j) = Cert.Spec.rowScore (fun d => Q (ix2 r d)) (fun j d => Kt (ix2 d j)) j := by
  unfold scoresOf Cert.Spec.rowScore
  rw [mulf_apply, qk_apply, broadcast_apply]
  rfl

private theorem weightsOf_apply (s : FVec Ideal S512x2048 .f32) (r : Fin 512) (j : Fin 2048) :
    weightsOf s (ix2 r j) = Ideal.exp (s (ix2 r j) - Cert.Spec.rowMax (fun j' => s (ix2 r j'))) := by
  unfold weightsOf Cert.Spec.rowMax
  show FloatOps.exp _ = _
  rw [Ideal.exp_def, subf_apply, broadcastTo_a1_ab_apply, shapeCast_a_a1_apply, rowMax_apply]

private theorem finishOf_apply (p : FVec Ideal S512x2048 .f32) (V : FVec Ideal S2048x64 .bf16) (r : Fin 512) (d : Fin 64) :
    finishOf p V (ix2 r d) = Ideal.div (∑ j : Fin 2048, p (ix2 r j) * V (ix2 j d)) (∑ j : Fin 2048, p (ix2 r j)) := by
  unfold finishOf
  rw [divf_apply, pv_apply, broadcastTo_a1_ab_apply, shapeCast_a_a1_apply, rowSum_apply]
  rfl

/-- The whole chain at (r, d) is the attention row that divides late. -/
private theorem head_apply (Q : FVec Ideal S512x64 .bf16) (Kt : FVec Ideal S64x2048 .bf16) (V : FVec Ideal S2048x64 .bf16) (r : Fin 512) (d : Fin 64) :
    finishOf (weightsOf (scoresOf Q Kt)) V (ix2 r d)
      = Cert.Spec.lateRow (fun d' => Q (ix2 r d')) (fun j d' => Kt (ix2 d' j)) (fun j d' => V (ix2 j d')) d := by
  rw [finishOf_apply]
  unfold Cert.Spec.lateRow Cert.Spec.rowDenom Cert.Spec.rowWeight
  simp only [weightsOf_apply, scoresOf_apply]

/-! ## The three blocks read where a head's operands sit -/

/-- A `[1, 1, a, b]` block cast to `[a, b]` reads, at (i, j), the block at (0, 0, i, j). -/
private theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The 64 query lanes from lane o on of the query block's row r. -/
private theorem q_read (v0 : Vec Ideal S1x1x512x128 .bf16) (o : ℕ) (h : S512x128.Slices ![0, o] S512x64) (r : Fin 512) (d : Fin 64) :
    extractStridedSlice S512x64 ![0, o] (k1_pay3 v0) h (ix2 r d)
      = v0 (ix4 (0 : Fin 1) (0 : Fin 1) r ⟨o + d.val, Nat.lt_of_lt_of_le (Nat.add_lt_add_left d.isLt o) (h.2 1)⟩) := by
  rw [slice2_axis1_eq]
  unfold k1_pay3
  exact shapeCast_11ab_ab_apply _ _ _ _

/-- The 64 value lanes from lane o on of the value block's row j. -/
private theorem v_read (v4 : Vec Ideal S1x1x2048x128 .bf16) (o : ℕ) (h : S2048x128.Slices ![0, o] S2048x64) (j : Fin 2048) (d : Fin 64) :
    extractStridedSlice S2048x64 ![0, o] (k1_pay5 v4) h (ix2 j d)
      = v4 (ix4 (0 : Fin 1) (0 : Fin 1) j ⟨o + d.val, Nat.lt_of_lt_of_le (Nat.add_lt_add_left d.isLt o) (h.2 1)⟩) := by
  rw [slice2_axis1_eq]
  unfold k1_pay5
  exact shapeCast_11ab_ab_apply _ _ _ _

/-- Plane g of the transposed key block at lane d, key j. -/
private theorem k_read (v2 : Vec Ideal S1x2x64x2048 .bf16) (g : ℕ) (hg : g < 2) (h : S2x64x2048.Slices ![g, 0, 0] S1x64x2048) (d : Fin 64) (j : Fin 2048) :
    shapeCast S64x2048 (extractStridedSlice S1x64x2048 ![g, 0, 0] (k1_pay4 v2) h) shapeCasts_S1x64x2048_S64x2048 (ix2 d j)
      = v2 (ix4 (0 : Fin 1) (⟨g, hg⟩ : Fin 2) d j) := by
  rw [shapeCast_1ab_ab_apply]
  rw [extractStridedSlice_apply _ _ _ _ (ix3 (⟨g, hg⟩ : Fin 2) d j) (fun ax => by
    match ax with
    | ⟨0, _⟩ => exact (Nat.add_zero _).symm
    | ⟨1, _⟩ => exact (Nat.zero_add _).symm
    | ⟨2, _⟩ => exact (Nat.zero_add _).symm)]
  unfold k1_pay4
  exact shapeCast_1abc_abc_apply _ _ _ _ _

/-! ## The two heads' payloads at an index -/

private theorem pay7_eq (v0 : Vec Ideal S1x1x512x128 .bf16) (v2 : Vec Ideal S1x2x64x2048 .bf16) (v4 : Vec Ideal S1x1x2048x128 .bf16) :
    k1_pay7 v0 v2 v4
      = finishOf (weightsOf (scoresOf (extractStridedSlice S512x64 ![0, 0] (k1_pay3 v0) slices_S512x128_o0_0_S512x64)
          (shapeCast S64x2048 (extractStridedSlice S1x64x2048 ![0, 0, 0] (k1_pay4 v2) slices_S2x64x2048_o0_0_0_S1x64x2048) shapeCasts_S1x64x2048_S64x2048)))
          (extractStridedSlice S2048x64 ![0, 0] (k1_pay5 v4) slices_S2048x128_o0_0_S2048x64) := rfl

private theorem pay8_eq (v0 : Vec Ideal S1x1x512x128 .bf16) (v2 : Vec Ideal S1x2x64x2048 .bf16) :
    k1_pay8 v0 v2
      = weightsOf (scoresOf (extractStridedSlice S512x64 ![0, 64] (k1_pay3 v0) slices_S512x128_o0_64_S512x64)
          (shapeCast S64x2048 (extractStridedSlice S1x64x2048 ![1, 0, 0] (k1_pay4 v2) slices_S2x64x2048_o1_0_0_S1x64x2048) shapeCasts_S1x64x2048_S64x2048)) := rfl

private theorem pay2_eq (V : FVec Ideal S2048x64 .bf16) (p : FVec Ideal S512x2048 .f32) :
    k1_pay2 V p = shapeCast S1x512x64 (finishOf p V) shapeCasts_S512x64_S1x512x64 := rfl

/-- Head 0 of the pair: lanes 0‥63 of the query and value blocks, plane 0 of the keys. -/
private theorem head0_apply (v0 : Vec Ideal S1x1x512x128 .bf16) (v2 : Vec Ideal S1x2x64x2048 .bf16) (v4 : Vec Ideal S1x1x2048x128 .bf16)
    (u : Fin 1) (r : Fin 512) (d : Fin 64) :
    k1_pay1 (k1_pay7 v0 v2 v4) (ix3 u r d)
      = Cert.Spec.lateRow
          (fun d' => v0 (ix4 (0 : Fin 1) (0 : Fin 1) r ⟨0 * 64 + d'.val, by have := d'.isLt; omega⟩))
          (fun j d' => v2 (ix4 (0 : Fin 1) ⟨0, by omega⟩ d' j))
          (fun j d' => v4 (ix4 (0 : Fin 1) (0 : Fin 1) j ⟨0 * 64 + d'.val, by have := d'.isLt; omega⟩)) d := by
  unfold k1_pay1
  rw [shapeCast_ab_1ab_apply, pay7_eq, head_apply]
  simp only [q_read, v_read, k_read v2 0 (by omega)]

/-- Head 1 of the pair: lanes 64‥127 of the query and value blocks, plane 1 of the keys. -/
private theorem head1_apply (v0 : Vec Ideal S1x1x512x128 .bf16) (v2 : Vec Ideal S1x2x64x2048 .bf16) (v4 : Vec Ideal S1x1x2048x128 .bf16)
    (u : Fin 1) (r : Fin 512) (d : Fin 64) :
    k1_pay2 (k1_pay6 v4) (k1_pay8 v0 v2) (ix3 u r d)
      = Cert.Spec.lateRow
          (fun d' => v0 (ix4 (0 : Fin 1) (0 : Fin 1) r ⟨1 * 64 + d'.val, by have := d'.isLt; omega⟩))
          (fun j d' => v2 (ix4 (0 : Fin 1) ⟨1, by omega⟩ d' j))
          (fun j d' => v4 (ix4 (0 : Fin 1) (0 : Fin 1) j ⟨1 * 64 + d'.val, by have := d'.isLt; omega⟩)) d := by
  rw [pay2_eq, shapeCast_ab_1ab_apply, pay8_eq, head_apply]
  unfold k1_pay6
  simp only [q_read, v_read, k_read v2 1 (by omega)]

/-! ## The two stored halves as one function of the block's index -/

/-- The attention row of head e / 64 of the pair at lane e % 64, from the three blocks. -/
private def rowOf (x0 : Vec Ideal S1x1x512x128 .bf16) (x1 : Vec Ideal S1x2x64x2048 .bf16) (x2 : Vec Ideal S1x1x2048x128 .bf16)
    (r : Fin 512) (e : Fin 128) : EReal :=
  Cert.Spec.lateRow
    (fun d => x0 (ix4 (0 : Fin 1) (0 : Fin 1) r ⟨e.val / 64 * 64 + d.val, by have := e.isLt; have := d.isLt; omega⟩))
    (fun j d => x1 (ix4 (0 : Fin 1) ⟨e.val / 64, by have := e.isLt; omega⟩ d j))
    (fun j d => x2 (ix4 (0 : Fin 1) (0 : Fin 1) j ⟨e.val / 64 * 64 + d.val, by have := e.isLt; have := d.isLt; omega⟩))
    ⟨e.val % 64, Nat.mod_lt _ (by decide)⟩

/-- At lane 64·g + d it is head g's row at lane d. -/
private theorem rowOf_eq (x0 : Vec Ideal S1x1x512x128 .bf16) (x1 : Vec Ideal S1x2x64x2048 .bf16) (x2 : Vec Ideal S1x1x2048x128 .bf16)
    (r : Fin 512) (g : ℕ) (hg : g < 2) (d : Fin 64) :
    rowOf x0 x1 x2 r ⟨g * 64 + d.val, by have := d.isLt; omega⟩
      = Cert.Spec.lateRow
          (fun d' => x0 (ix4 (0 : Fin 1) (0 : Fin 1) r ⟨g * 64 + d'.val, by have := d'.isLt; omega⟩))
          (fun j d' => x1 (ix4 (0 : Fin 1) ⟨g, hg⟩ d' j))
          (fun j d' => x2 (ix4 (0 : Fin 1) (0 : Fin 1) j ⟨g * 64 + d'.val, by have := d'.isLt; omega⟩)) d := by
  have h1 : (g * 64 + d.val) / 64 = g := by have := d.isLt; omega
  have h2 : (g * 64 + d.val) % 64 = d.val := by have := d.isLt; omega
  unfold rowOf
  simp only [h1, h2, Fin.eta]

/-- The function of the block's index both stores are tiles of. -/
private def blockOf (x0 : Vec Ideal S1x1x512x128 .bf16) (x1 : Vec Ideal S1x2x64x2048 .bf16) (x2 : Vec Ideal S1x1x2048x128 .bf16) :
    Vec Ideal S1x512x128 .f32 :=
  fun y => rowOf x0 x1 x2 ⟨(y 1).val, (y 1).isLt⟩ ⟨(y 2).val, (y 2).isLt⟩

/-- The store into lanes 64‥127 is head 1's tile of it. -/
private theorem piece_hi (x0 : Vec Ideal S1x1x512x128 .bf16) (x1 : Vec Ideal S1x2x64x2048 .bf16) (x2 : Vec Ideal S1x1x2048x128 .bf16)
    (x : S1x512x64.Idx) :
    k1_pay2 (k1_pay6 x2) (k1_pay8 x0 x1) x = blockOf x0 x1 x2 (r1_4.emb x) := by
  obtain ⟨u, r, d, rfl⟩ : ∃ (u : Fin 1) (r : Fin 512) (d : Fin 64), x = ix3 u r d := ⟨x 0, x 1, x 2, eq_ix3 x⟩
  have e1 : (⟨(r1_4.emb (ix3 u r d) 1).val, (r1_4.emb (ix3 u r d) 1).isLt⟩ : Fin 512) = r :=
    Fin.ext (by show 0 + 1 * r.val = r.val; omega)
  have e2 : (⟨(r1_4.emb (ix3 u r d) 2).val, (r1_4.emb (ix3 u r d) 2).isLt⟩ : Fin 128) = ⟨1 * 64 + d.val, by have := d.isLt; omega⟩ :=
    Fin.ext (by show 64 + 1 * d.val = 1 * 64 + d.val; omega)
  unfold blockOf
  rw [e1, e2, rowOf_eq x0 x1 x2 r 1 (by omega) d]
  exact head1_apply x0 x1 x2 u r d

/-- The store into lanes 0‥63 is head 0's tile of it. -/
private theorem piece_lo (x0 : Vec Ideal S1x1x512x128 .bf16) (x1 : Vec Ideal S1x2x64x2048 .bf16) (x2 : Vec Ideal S1x1x2048x128 .bf16)
    (x : S1x512x64.Idx) :
    k1_pay1 (k1_pay7 x0 x1 x2) x = blockOf x0 x1 x2 (r1_3.emb x) := by
  obtain ⟨u, r, d, rfl⟩ : ∃ (u : Fin 1) (r : Fin 512) (d : Fin 64), x = ix3 u r d := ⟨x 0, x 1, x 2, eq_ix3 x⟩
  have e1 : (⟨(r1_3.emb (ix3 u r d) 1).val, (r1_3.emb (ix3 u r d) 1).isLt⟩ : Fin 512) = r :=
    Fin.ext (by show 0 + 1 * r.val = r.val; omega)
  have e2 : (⟨(r1_3.emb (ix3 u r d) 2).val, (r1_3.emb (ix3 u r d) 2).isLt⟩ : Fin 128) = ⟨0 * 64 + d.val, by have := d.isLt; omega⟩ :=
    Fin.ext (by show 0 + 1 * d.val = 0 * 64 + d.val; omega)
  unfold blockOf
  rw [e1, e2, rowOf_eq x0 x1 x2 r 0 (by omega) d]
  exact head0_apply x0 x1 x2 u r d

/-- What the body leaves in the output block, read at row r and lane e of its 128: the attention row of head
    e / 64 of the pair — its 64 query lanes out of the query block's row r, its keys from the transposed key block,
    its values out of the value block — at lane e % 64. -/
theorem out1_3_apply (x0 : Vec Ideal S1x1x512x128 .bf16) (x1 : Vec Ideal S1x2x64x2048 .bf16) (x2 : Vec Ideal S1x1x2048x128 .bf16)
    (r : Fin 512) (e : Fin 128) :
    out1_3 x0 x1 x2 (ix3 (0 : Fin 1) r e)
      = Cert.Spec.lateRow
          (fun d => x0 (ix4 (0 : Fin 1) (0 : Fin 1) r ⟨e.val / 64 * 64 + d.val, by have := e.isLt; have := d.isLt; omega⟩))
          (fun j d => x1 (ix4 (0 : Fin 1) ⟨e.val / 64, by have := e.isLt; omega⟩ d j))
          (fun j d => x2 (ix4 (0 : Fin 1) (0 : Fin 1) j ⟨e.val / 64 * 64 + d.val, by have := e.isLt; have := d.isLt; omega⟩))
          ⟨e.val % 64, Nat.mod_lt _ (by decide)⟩ := by
  have hz : (![0, 0, 0, 0] : Fin 4 → ℕ) = fun _ => 0 := funext fun a => by
    match a with
    | ⟨0, _⟩ => rfl
    | ⟨1, _⟩ => rfl
    | ⟨2, _⟩ => rfl
    | ⟨3, _⟩ => rfl
  unfold out1_3
  rw [View.ld_unit_zero hz, View.ld_unit_zero hz, View.ld_unit_zero hz]
  refine (View.canon_apply_of_pieces (blockOf x0 x1 x2) _ ?_ (ix3 (0 : Fin 1) r e) (cover1_3 _ _ _)).trans rfl
  intro p hp x
  rcases List.mem_cons.mp hp with rfl | hp
  · exact piece_hi x0 x1 x2 x
  · rcases List.mem_cons.mp hp with rfl | hp
    · exact piece_lo x0 x1 x2 x
    · exact absurd hp List.not_mem_nil

end Cert.KernelIdeal.Stage2

end
-- ==== Proof.Stage2.lean ====
/- The second stage's result array: what its write-backs leave is the attention of the three arrays it is given. -/
import proofs.«423137_j14577119002882_3_alg».proof.Proof.Gen.KernelIdeal.Frame
import proofs.«423137_j14577119002882_3_alg».proof.Proof.Spec
import proofs.«423137_j14577119002882_3_alg».proof.Proof.Stage2Pay
import Idealize.ShloMosaic.Lib.Pipeline.Value

set_option maxRecDepth 16384
noncomputable section

namespace Cert.KernelIdeal.Stage2

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The index maps over the grid

A grid point has coordinates (batch, head pair, query tile). The result's block index is (batch, query tile, head
pair); the query block sits at (batch, head pair, query tile, 0); the key and value blocks at (batch, head pair, 0, 0). -/

/-- Each input window's block index in terms of the result's, and the result's ranges, decided over the grid. -/
private theorem idx_facts : ∀ t : Fin cfg1.N,
    win1_0.index t (0 : Fin 4) = win1_3.index t (0 : Fin 3)
    ∧ win1_0.index t (1 : Fin 4) = win1_3.index t (2 : Fin 3)
    ∧ win1_0.index t (2 : Fin 4) = win1_3.index t (1 : Fin 3)
    ∧ win1_0.index t (3 : Fin 4) = 0
    ∧ win1_1.index t (0 : Fin 4) = win1_3.index t (0 : Fin 3)
    ∧ win1_1.index t (1 : Fin 4) = win1_3.index t (2 : Fin 3)
    ∧ win1_1.index t (2 : Fin 4) = 0
    ∧ win1_1.index t (3 : Fin 4) = 0
    ∧ win1_2.index t (0 : Fin 4) = win1_3.index t (0 : Fin 3)
    ∧ win1_2.index t (1 : Fin 4) = win1_3.index t (2 : Fin 3)
    ∧ win1_2.index t (2 : Fin 4) = 0
    ∧ win1_2.index t (3 : Fin 4) = 0
    ∧ win1_3.index t (0 : Fin 3) < 4 ∧ win1_3.index t (1 : Fin 3) < 4 ∧ win1_3.index t (2 : Fin 3) < 8 :=
  (by decide +kernel : ∀ t : Fin grid1.N, _)

/-- Every block of the result is some point's. -/
private theorem idx_onto : ∀ (q0 : Fin 4) (q1 : Fin 4) (q2 : Fin 8), ∃ t : Fin cfg1.N, win1_3.index t = ![q0.val, q1.val, q2.val] :=
  (by decide +kernel : ∀ (q0 : Fin 4) (q1 : Fin 4) (q2 : Fin 8), ∃ t : Fin grid1.N, win1_3.index t = ![q0.val, q1.val, q2.val])

/-! ## The blocks the body reads, as elements of the three arrays -/

/-- The query block at a point: row r, lane l of the block is row 512·(query tile) + r, lane l of the pair's queries. -/
private theorem qblk_apply (c : Dev nD) (t : Fin cfg1.N) (b : Fin 4) (hp : Fin 8) (i : Fin 2048) (r : Fin 512) (l : Fin 128)
    (h0 : win1_0.index t (0 : Fin 4) = b.val) (h1 : win1_0.index t (1 : Fin 4) = hp.val)
    (h2 : win1_0.index t (2 : Fin 4) * 512 + r.val = i.val) (h3 : win1_0.index t (3 : Fin 4) = 0) :
    (iblk1 V c 0 t : Vec Ideal S1x1x512x128 .bf16) (ix4 (0 : Fin 1) (0 : Fin 1) r l)
      = (V c main_v8_0 : S4x8x2048x128.Idx → EReal) (ix4 b hp i l) := by
  unfold iblk1
  rw [View.read_apply]
  show V c main_v8_0 _ = V c main_v8_0 _
  congr 1
  funext a
  apply Fin.ext
  match a with
  | ⟨0, _⟩ => show win1_0.index t (0 : Fin 4) * 1 + 1 * 0 = b.val; omega
  | ⟨1, _⟩ => show win1_0.index t (1 : Fin 4) * 1 + 1 * 0 = hp.val; omega
  | ⟨2, _⟩ => show win1_0.index t (2 : Fin 4) * 512 + 1 * r.val = i.val; omega
  | ⟨3, _⟩ => show win1_0.index t (3 : Fin 4) * 128 + 1 * l.val = l.val; omega

/-- The key block at a point: head p of the pair, lane d, row j is head 2·(pair) + p, lane d, row j of the transposed keys. -/
private theorem kblk_apply (c : Dev nD) (t : Fin cfg1.N) (b : Fin 4) (h : Fin 16) (p : Fin 2) (d : Fin 64) (j : Fin 2048)
    (h0 : win1_1.index t (0 : Fin 4) = b.val) (h1 : win1_1.index t (1 : Fin 4) * 2 + p.val = h.val)
    (h2 : win1_1.index t (2 : Fin 4) = 0) (h3 : win1_1.index t (3 : Fin 4) = 0) :
    (iblk1 V c 1 t : Vec Ideal S1x2x64x2048 .bf16) (ix4 (0 : Fin 1) p d j)
      = (V c main_v8_1 : S4x16x64x2048.Idx → EReal) (ix4 b h d j) := by
  unfold iblk1
  rw [View.read_apply]
  show V c main_v8_1 _ = V c main_v8_1 _
  congr 1
  funext a
  apply Fin.ext
  match a with
  | ⟨0, _⟩ => show win1_1.index t (0 : Fin 4) * 1 + 1 * 0 = b.val; omega
  | ⟨1, _⟩ => show win1_1.index t (1 : Fin 4) * 2 + 1 * p.val = h.val; omega
  | ⟨2, _⟩ => show win1_1.index t (2 : Fin 4) * 64 + 1 * d.val = d.val; omega
  | ⟨3, _⟩ => show win1_1.index t (3 : Fin 4) * 2048 + 1 * j.val = j.val; omega

/-- The value block at a point: row j, lane l of the block is row j, lane l of the pair's values. -/
private theorem vblk_apply (c : Dev nD) (t : Fin cfg1.N) (b : Fin 4) (hp : Fin 8) (j : Fin 2048) (l : Fin 128)
    (h0 : win1_2.index t (0 : Fin 4) = b.val) (h1 : win1_2.index t (1 : Fin 4) = hp.val)
    (h2 : win1_2.index t (2 : Fin 4) = 0) (h3 : win1_2.index t (3 : Fin 4) = 0) :
    (iblk1 V c 2 t : Vec Ideal S1x1x2048x128 .bf16) (ix4 (0 : Fin 1) (0 : Fin 1) j l)
      = (V c main_v8_2 : S4x8x2048x128.Idx → EReal) (ix4 b hp j l) := by
  unfold iblk1
  rw [View.read_apply]
  show V c main_v8_2 _ = V c main_v8_2 _
  congr 1
  funext a
  apply Fin.ext
  match a with
  | ⟨0, _⟩ => show win1_2.index t (0 : Fin 4) * 1 + 1 * 0 = b.val; omega
  | ⟨1, _⟩ => show win1_2.index t (1 : Fin 4) * 1 + 1 * 0 = hp.val; omega
  | ⟨2, _⟩ => show win1_2.index t (2 : Fin 4) * 2048 + 1 * j.val = j.val; omega
  | ⟨3, _⟩ => show win1_2.index t (3 : Fin 4) * 128 + 1 * l.val = l.val; omega

/-! ## What a point writes back -/

/-- The result array read at batch b, row i, column e: head e / 64's attention row i at lane e % 64. -/
private theorem attnArr_ix3 (q8 : Cert.Spec.SQ8.Idx → EReal) (k16 : Cert.Spec.SK16.Idx → EReal) (v8 : Cert.Spec.SQ8.Idx → EReal)
    (b : Fin 4) (i : Fin 2048) (e : Fin 1024) :
    Cert.Spec.attnArr q8 k16 v8 (ix3 b i e)
      = Cert.Spec.lateRow (Cert.Spec.pairedHeads q8 b (Cert.Spec.headOf e) i) (Cert.Spec.keyHeads k16 b (Cert.Spec.headOf e))
          (Cert.Spec.pairedHeads v8 b (Cert.Spec.headOf e)) (Cert.Spec.laneOf e) := rfl

/-- The body's block at a point, at row r and lane e of its 128: the result array's element at the block's batch,
    row 512·(query tile) + r, column 128·(head pair) + e. With e = 64·p + d the column is 64·(2·(head pair) + p) + d: head
    2·(head pair) + p at lane d, whose queries and values are lanes 64·p + · of the pair's and whose keys are head p of the
    key block. -/
private theorem point_eq (c : Dev nD) (t : Fin cfg1.N) (b : Fin 4) (i : Fin 2048) (col : Fin 1024) (r : Fin 512) (e : Fin 128)
    (hb : win1_3.index t (0 : Fin 3) = b.val) (hi : win1_3.index t (1 : Fin 3) * 512 + r.val = i.val)
    (hcol : win1_3.index t (2 : Fin 3) * 128 + e.val = col.val) :
    out1_3 (iblk1 V c 0 t) (iblk1 V c 1 t) (iblk1 V c 2 t) (ix3 (0 : Fin 1) r e)
      = Cert.Spec.attnArr (V c main_v8_0) (V c main_v8_1) (V c main_v8_2) (ix3 b i col) := by
  obtain ⟨q0, q1, q2, q3, k0, k1, k2, k3, v0, v1, v2, v3, lt0, lt1, lt2⟩ := idx_facts t
  have he : e.val < 128 := e.isLt
  rw [attnArr_ix3]
  refine (out1_3_apply (iblk1 V c 0 t) (iblk1 V c 1 t) (iblk1 V c 2 t) r e).trans ?_
  have hhead : (Cert.Spec.headOf col).val = win1_3.index t (2 : Fin 3) * 2 + e.val / 64 := by
    show col.val / 64 = _; omega
  have hlane : (⟨e.val % 64, Nat.mod_lt _ (by decide)⟩ : Fin 64) = Cert.Spec.laneOf col := by
    apply Fin.ext; show e.val % 64 = col.val % 64; omega
  rw [hlane]
  congr 1
  · funext d
    have hd : d.val < 64 := d.isLt
    rw [qblk_apply V c t b ⟨win1_3.index t (2 : Fin 3), lt2⟩ i r _ (q0.trans hb) q1 (by rw [q2]; exact hi) q3]
    unfold Cert.Spec.pairedHeads
    congr 1
    funext a
    apply Fin.ext
    match a with
    | ⟨0, _⟩ => rfl
    | ⟨1, _⟩ => show win1_3.index t (2 : Fin 3) = (Cert.Spec.headOf col).val / 2; omega
    | ⟨2, _⟩ => rfl
    | ⟨3, _⟩ => show e.val / 64 * 64 + d.val = (Cert.Spec.headOf col).val % 2 * 64 + d.val; omega
  · funext j d
    rw [kblk_apply V c t b (Cert.Spec.headOf col) _ d j (k0.trans hb) (by rw [k1]; exact hhead.symm) k2 k3]
    rfl
  · funext j d
    have hd : d.val < 64 := d.isLt
    rw [vblk_apply V c t b ⟨win1_3.index t (2 : Fin 3), lt2⟩ j _ (v0.trans hb) v1 v2 v3]
    unfold Cert.Spec.pairedHeads
    congr 1
    funext a
    apply Fin.ext
    match a with
    | ⟨0, _⟩ => rfl
    | ⟨1, _⟩ => show win1_3.index t (2 : Fin 3) = (Cert.Spec.headOf col).val / 2; omega
    | ⟨2, _⟩ => rfl
    | ⟨3, _⟩ => show e.val / 64 * 64 + d.val = (Cert.Spec.headOf col).val % 2 * 64 + d.val; omega

/-- What point t writes back is block t of the attention of the three arrays. -/
private theorem flushed_eq (c : Dev nD) (t : Fin cfg1.N) :
    (dat1 V c).flushed 3 t
      = ((cfg1.win 3).blk t).view.read (Elt Ideal) (Cert.Spec.attnArr (V c main_v8_0) (V c main_v8_1) (V c main_v8_2)) := by
  show (cfg1.win 3).cut (grid1.coords t) ((dat1 V c).after 3 t) = _
  rw [after1_3]
  obtain ⟨q0, q1, q2, q3, k0, k1, k2, k3, v0, v1, v2, v3, lt0, lt1, lt2⟩ := idx_facts t
  funext j
  have hj0 : (j 0).val < 1 := (j 0).isLt
  have hj1 : (j 1).val < 512 := (j 1).isLt
  have hj2 : (j 2).val < 128 := (j 2).isLt
  rw [View.read_apply]
  have hsrc : (cfg1.win 3).xinj (grid1.coords t) j = ix3 (0 : Fin 1) ⟨(j 1).val, hj1⟩ ⟨(j 2).val, hj2⟩ := by
    funext a
    apply Fin.ext
    match a with
    | ⟨0, _⟩ => show (j 0).val = 0; omega
    | ⟨1, _⟩ => rfl
    | ⟨2, _⟩ => rfl
  have hdst : ((cfg1.win 3).blk t).view.emb j
      = ix3 (⟨win1_3.index t (0 : Fin 3), lt0⟩ : Fin 4) (⟨win1_3.index t (1 : Fin 3) * 512 + (j 1).val, by omega⟩ : Fin 2048)
          (⟨win1_3.index t (2 : Fin 3) * 128 + (j 2).val, by omega⟩ : Fin 1024) := by
    funext a
    apply Fin.ext
    match a with
    | ⟨0, _⟩ => show win1_3.index t (0 : Fin 3) * 1 + 1 * (j 0).val = win1_3.index t (0 : Fin 3); omega
    | ⟨1, _⟩ => show win1_3.index t (1 : Fin 3) * 512 + 1 * (j 1).val = win1_3.index t (1 : Fin 3) * 512 + (j 1).val; omega
    | ⟨2, _⟩ => show win1_3.index t (2 : Fin 3) * 128 + 1 * (j 2).val = win1_3.index t (2 : Fin 3) * 128 + (j 2).val; omega
  show out1_3 (iblk1 V c 0 t) (iblk1 V c 1 t) (iblk1 V c 2 t) ((cfg1.win 3).xinj (grid1.coords t) j)
    = Cert.Spec.attnArr (V c main_v8_0) (V c main_v8_1) (V c main_v8_2) (((cfg1.win 3).blk t).view.emb j)
  rw [hsrc, hdst]
  exact point_eq V c t _ _ _ _ _ rfl rfl rfl

/-! ## The blocks cover the result -/

/-- An index of the result is in point t's block iff each coordinate is in the block's range on its axis. -/
private theorem mem_blk (t : Fin cfg1.N) (i : S4x2048x1024.Idx) :
    i ∈ ((cfg1.win 3).blk t).view.set
      ↔ ∀ a : Fin 3, win1_3.index t a * S1x512x128.size a ≤ (i a).val ∧ (i a).val < win1_3.index t a * S1x512x128.size a + S1x512x128.size a := by
  show i ∈ ((View.whole main_v9).slice (win1_3.rect t)).set ↔ _
  rw [View.set_slice_whole, Rect.mem_set_unit]
  exact Iff.rfl

/-- Batch b, row i, column e of the result lies in the block of the point with block index (b, i / 512, e / 128). -/
private theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have e0 : win1_3.index t (0 : Fin 3) = (i 0).val := congrFun ht 0
  have e1 : win1_3.index t (1 : Fin 3) = (i 1).val / 512 := congrFun ht 1
  have e2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

theorem out_eq (c : Dev nD) :
    (dat1 V c).arrAt 3 cfg1.N = Cert.Spec.attnArr (V c main_v8_0) (V c main_v8_1) (V c main_v8_2) := by
  exact (dat1 V c).arrAt_eq_of_cover 3 _ (fun t _ => flushed_eq V c t) cover

end Cert.KernelIdeal.Stage2

end
-- ==== Proof.RefValue.lean ====
/- The reference's result, read one operation at a time, is the attention that normalises its weights before the sum over the values. -/
import proofs.«423137_j14577119002882_3_alg».proof.Proof.Gen.ReferenceIdeal.Run
import proofs.«423137_j14577119002882_3_alg».proof.Proof.Gen.ReferenceIdeal.Read
import proofs.«423137_j14577119002882_3_alg».proof.Proof.Spec

set_option maxRecDepth 16384
noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

section Stages

variable (x : (⟨S4x2048x1024, .f32⟩ : BufTy).Contents (Elt Ideal)) (w : (⟨S1024x3072, .f32⟩ : BufTy).Contents (Elt Ideal))
    (bias : (⟨S3072, .f32⟩ : BufTy).Contents (Elt Ideal))

/-! ## The projection -/

/-- The dot product with the weights plus the broadcast bias is the fused projection. -/
private theorem v3_at (b : Fin 4) (t : Fin 2048) (e : Fin 3072) :
    val_main_v3 (F := Ideal) x w bias (ix3 b t e) = Spec.proj x w bias b t e := by
  rw [val_main_v3_apply, val_main_v0_apply, val_main_v2_apply, val_main_v1_apply]
  have el : ∀ k : Fin 1024, lidx_main_v0 (ix3 b t e) k = ix3 b t k := fun k => funext fun a => by
    match a with | ⟨0, _⟩ => rfl | ⟨1, _⟩ => rfl | ⟨2, _⟩ => rfl
  have er : ∀ k : Fin 1024, ridx_main_v0 (ix3 b t e) k = ix2 k e := fun k => funext fun a => by
    match a with | ⟨0, _⟩ => rfl | ⟨1, _⟩ => rfl
  have eb : idx_main_v1 (idx_main_v2 (ix3 b t e)) = ix1 e := funext fun a => by
    match a with | ⟨0, _⟩ => rfl
  simp only [el, er, eb]
  rfl

/-- Row-major position (((b·2048 + t)·16 + h)·3 + g)·64 + d of the 5-axis view is row (b, t), column 192·h + 64·g + d. -/
private theorem v4_at (b : Fin 4) (t : Fin 2048) (h : Fin 16) (g : Fin 3) (d : Fin 64) :
    val_main_v4 (F := Ideal) x w bias (ix5 b t h g d) = Spec.proj x w bias b t (Spec.col h g d) := by
  have e : idx_main_v4 (ix5 b t h g d) = ix3 b t (Spec.col h g d) := funext fun a => Fin.ext (by
    have hb := b.isLt; have ht := t.isLt; have hh := h.isLt; have hg := g.isLt; have hd := d.isLt
    match a with
    | ⟨0, _⟩ => show ((((b.val * 2048 + t.val) * 16 + h.val) * 3 + g.val) * 64 + d.val) / 6291456 = b.val; omega
    | ⟨1, _⟩ => show ((((b.val * 2048 + t.val) * 16 + h.val) * 3 + g.val) * 64 + d.val) / 3072 % 2048 = t.val; omega
    | ⟨2, _⟩ => show ((((b.val * 2048 + t.val) * 16 + h.val) * 3 + g.val) * 64 + d.val) % 3072 = h.val * 192 + g.val * 64 + d.val; omega)
  rw [val_main_v4_apply, e, v3_at]

/-- Dropping the unit axis: position (b, t, h, d) of the 4-axis view is (b, t, h, 0, d) of the 5-axis one. -/
private theorem idx6_eq (b : Fin 4) (t : Fin 2048) (h : Fin 16) (d : Fin 64) :
    idx_main_v6 (ix4 b t h d) = ix5 b t h (0 : Fin 1) d := funext fun a => Fin.ext (by
  have hb := b.isLt; have ht := t.isLt; have hh := h.isLt; have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) / 64 % 16 = h.val; omega
  | ⟨3, _⟩ => rfl
  | ⟨4, _⟩ => show (((b.val * 2048 + t.val) * 16 + h.val) * 64 + d.val) % 64 = d.val; omega)

/-- The queries: slice 0 of the 5-axis view, head-major. -/
private theorem v7_at (b : Fin 4) (h : Fin 16) (t : Fin 2048) (d : Fin 64) :
    val_main_v7 (F := Ideal) x w bias (ix4 b h t d) = Spec.headsOf x w bias 0 b h t d := by
  have e7 : idx_main_v7 (ix4 b h t d) = ix4 b t h d := funext fun a => by
    match a with | ⟨0, _⟩ => rfl | ⟨1, _⟩ => rfl | ⟨2, _⟩ => rfl | ⟨3, _⟩ => rfl
  have e5 : idx_main_v5 (ix5 b t h (0 : Fin 1) d) = ix5 b t h (0 : Fin 3) d := funext fun a => by
    match a with | ⟨0, _⟩ => rfl | ⟨1, _⟩ => rfl | ⟨2, _⟩ => rfl | ⟨3, _⟩ => rfl | ⟨4, _⟩ => rfl
  rw [val_main_v7_apply, e7, val_main_v6_apply, idx6_eq, val_main_v5_apply, e5, v4_at]
  rfl

/-- The keys: slice 1. -/
private theorem v10_at (b : Fin 4) (h : Fin 16) (t : Fin 2048) (d : Fin 64) :
    val_main_v10 (F := Ideal) x w bias (ix4 b h t d) = Spec.headsOf x w bias 1 b h t d := by
  have e7 : idx_main_v10 (ix4 b h t d) = ix4 b t h d := funext fun a => by
    match a with | ⟨0, _⟩ => rfl | ⟨1, _⟩ => rfl | ⟨2, _⟩ => rfl | ⟨3, _⟩ => rfl
  have e6 : idx_main_v9 (ix4 b t h d) = ix5 b t h (0 : Fin 1) d := idx6_eq b t h d
  have e5 : idx_main_v8 (ix5 b t h (0 : Fin 1) d) = ix5 b t h (1 : Fin 3) d := funext fun a => by
    match a with | ⟨0, _⟩ => rfl | ⟨1, _⟩ => rfl | ⟨2, _⟩ => rfl | ⟨3, _⟩ => rfl | ⟨4, _⟩ => rfl
  rw [val_main_v10_apply, e7, val_main_v9_apply, e6, val_main_v8_apply, e5, v4_at]
  rfl

/-- The values: slice 2. -/
private theorem v13_at (b : Fin 4) (h : Fin 16) (t : Fin 2048) (d : Fin 64) :
    val_main_v13 (F := Ideal) x w bias (ix4 b h t d) = Spec.headsOf x w bias 2 b h t d := by
  have e7 : idx_main_v13 (ix4 b h t d) = ix4 b t h d := funext fun a => by
    match a with | ⟨0, _⟩ => rfl | ⟨1, _⟩ => rfl | ⟨2, _⟩ => rfl | ⟨3, _⟩ => rfl
  have e6 : idx_main_v12 (ix4 b t h d) = ix5 b t h (0 : Fin 1) d := idx6_eq b t h d
  have e5 : idx_main_v11 (ix5 b t h (0 : Fin 1) d) = ix5 b t h (2 : Fin 3) d := funext fun a => by
    match a with | ⟨0, _⟩ => rfl | ⟨1, _⟩ => rfl | ⟨2, _⟩ => rfl | ⟨3, _⟩ => rfl | ⟨4, _⟩ => rfl
  rw [val_main_v13_apply, e7, val_main_v12_apply, e6, val_main_v11_apply, e5, v4_at]
  rfl

/-! ## Scores, row maximum, weights, normaliser -/

/-- The scaled scores. -/
private theorem v16_at (b : Fin 4) (h : Fin 16) (i j : Fin 2048) :
    val_main_v16 (F := Ideal) x w bias (ix4 b h i j)
      = Spec.rowScore (Spec.headsOf x w bias 0 b h i) (Spec.headsOf x w bias 1 b h) j := by
  rw [val_main_v16_apply, val_main_v14_apply, val_main_v15_apply, val_main_cst_apply]
  have el : ∀ k : Fin 64, lidx_main_v14 (ix4 b h i j) k = ix4 b h i k := fun k => funext fun a => by
    match a with | ⟨0, _⟩ => rfl | ⟨1, _⟩ => rfl | ⟨2, _⟩ => rfl | ⟨3, _⟩ => rfl
  have er : ∀ k : Fin 64, ridx_main_v14 (ix4 b h i j) k = ix4 b h j k := fun k => funext fun a => by
    match a with | ⟨0, _⟩ => rfl | ⟨1, _⟩ => rfl | ⟨2, _⟩ => rfl | ⟨3, _⟩ => rfl
  simp only [el, er, v7_at, v10_at]
  rfl

/-- The reduction with maximum over the key axis is the fold of max over the keys. -/
private theorem v17_at (b : Fin 4) (h : Fin 16) (i : Fin 2048) :
    val_main_v17 (F := Ideal) x w bias (ix3 b h i)
      = Spec.rowMax (Spec.rowScore (Spec.headsOf x w bias 0 b h i) (Spec.headsOf x w bias 1 b h)) := by
  unfold val_main_v17
  have hy' : ∀ j : Fin 2048, val_main_v16 (F := Ideal) x w bias (ix4 b h i j)
      = Spec.rowScore (Spec.headsOf x w bias 0 b h i) (Spec.headsOf x w bias 1 b h) j := fun j => v16_at x w bias b h i j
  generalize val_main_v16 (F := Ideal) x w bias = y at hy' ⊢
  have hR : S4x16x2048x2048.Reduces [3] S4x16x2048 := by decide
  rw [Host.reduce_eq_fold_single _ y _ reducesTo_S4x16x2048x2048_S4x16x2048_d3 hR h_S_ (ix3 b h i)]
  have hl : ∀ k : Fin 2048, hR.lift (ix3 b h i) k = ix4 b h i k := fun k => funext fun a => Fin.ext (by
    match a with | ⟨0, _⟩ => rfl | ⟨1, _⟩ => rfl | ⟨2, _⟩ => rfl | ⟨3, _⟩ => rfl)
  have hf : y ∘ hR.lift (ix3 b h i) = Spec.rowScore (Spec.headsOf x w bias 0 b h i) (Spec.headsOf x w bias 1 b h) :=
    funext fun k => (congrArg y (hl k)).trans (hy' k)
  rw [hf]
  rfl

/-- The maximum with −∞ changes nothing: the fold already starts from −∞. -/
private theorem v19_at (b : Fin 4) (h : Fin 16) (i : Fin 2048) :
    val_main_v19 (F := Ideal) x w bias (ix3 b h i)
      = Spec.rowMax (Spec.rowScore (Spec.headsOf x w bias 0 b h i) (Spec.headsOf x w bias 1 b h)) := by
  rw [val_main_v19_apply, val_main_v18_apply, val_main_cst_1_apply, v17_at]
  unfold Spec.rowMax
  exact max_eq_right ((Finset.le_fold_max _).2 (Or.inl le_rfl))

/-- The unnormalised weights. -/
private theorem v23_at (b : Fin 4) (h : Fin 16) (i j : Fin 2048) :
    val_main_v23 (F := Ideal) x w bias (ix4 b h i j)
      = Spec.rowWeight (Spec.headsOf x w bias 0 b h i) (Spec.headsOf x w bias 1 b h) j := by
  have e : idx_main_v20 (idx_main_v21 (ix4 b h i j)) = ix3 b h i := funext fun a => by
    match a with | ⟨0, _⟩ => rfl | ⟨1, _⟩ => rfl | ⟨2, _⟩ => rfl
  rw [val_main_v23_apply, val_main_v22_apply, val_main_v21_apply, val_main_v20_apply, e, v19_at, v16_at]
  rfl

/-- The normaliser: the sum starts from the literal zero. -/
private theorem v24_at (b : Fin 4) (h : Fin 16) (i : Fin 2048) :
    val_main_v24 (F := Ideal) x w bias (ix3 b h i)
      = Spec.rowDenom (Spec.headsOf x w bias 0 b h i) (Spec.headsOf x w bias 1 b h) := by
  rw [val_main_v24_apply, val_main_cst_2_apply]
  have e : ∀ k : Fin 2048, idx_main_v24 (ix3 b h i) k = ix4 b h i k := fun k => funext fun a => by
    match a with | ⟨0, _⟩ => rfl | ⟨1, _⟩ => rfl | ⟨2, _⟩ => rfl | ⟨3, _⟩ => rfl
  simp only [e, v23_at]
  show Ideal.ofBits .f32 0x00000000#32 + _ = _
  rw [Ideal.ofBits_zero_f32, zero_add]
  rfl

/-! ## Normalised weights, product with the values, result layout -/

/-- Each weight divided by its row's normaliser. -/
private theorem v27_at (b : Fin 4) (h : Fin 16) (i j : Fin 2048) :
    val_main_v27 (F := Ideal) x w bias (ix4 b h i j)
      = Ideal.div (Spec.rowWeight (Spec.headsOf x w bias 0 b h i) (Spec.headsOf x w bias 1 b h) j)
          (Spec.rowDenom (Spec.headsOf x w bias 0 b h i) (Spec.headsOf x w bias 1 b h)) := by
  have e : idx_main_v25 (idx_main_v26 (ix4 b h i j)) = ix3 b h i := funext fun a => by
    match a with | ⟨0, _⟩ => rfl | ⟨1, _⟩ => rfl | ⟨2, _⟩ => rfl
  rw [val_main_v27_apply, val_main_v26_apply, val_main_v25_apply, e, v24_at, v23_at]
  rfl

/-- The normalised weights times the values, summed over the keys. -/
private theorem v28_at (b : Fin 4) (h : Fin 16) (i : Fin 2048) (d : Fin 64) :
    val_main_v28 (F := Ideal) x w bias (ix4 b h i d)
      = Spec.earlyRow (Spec.headsOf x w bias 0 b h i) (Spec.headsOf x w bias 1 b h) (Spec.headsOf x w bias 2 b h) d := by
  rw [val_main_v28_apply]
  have el : ∀ k : Fin 2048, lidx_main_v28 (ix4 b h i d) k = ix4 b h i k := fun k => funext fun a => by
    match a with | ⟨0, _⟩ => rfl | ⟨1, _⟩ => rfl | ⟨2, _⟩ => rfl | ⟨3, _⟩ => rfl
  have er : ∀ k : Fin 2048, ridx_main_v28 (ix4 b h i d) k = ix4 b h k d := fun k => funext fun a => by
    match a with | ⟨0, _⟩ => rfl | ⟨1, _⟩ => rfl | ⟨2, _⟩ => rfl | ⟨3, _⟩ => rfl
  simp only [el, er, v27_at, v13_at]
  rfl

/-- Result element (b, t, e) is head e / 64, row t, lane e % 64. -/
private theorem v30_at (b : Fin 4) (t : Fin 2048) (e : Fin 1024) :
    val_main_v30 (F := Ideal) x w bias (ix3 b t e) = Spec.outEarly x w bias (ix3 b t e) := by
  have e30 : idx_main_v30 (ix3 b t e) = ix4 b t (Spec.headOf e) (Spec.laneOf e) := funext fun a => Fin.ext (by
    have hb := b.isLt; have ht := t.isLt; have he := e.isLt
    match a with
    | ⟨0, _⟩ => show ((b.val * 2048 + t.val) * 1024 + e.val) / 2097152 = b.val; omega
    | ⟨1, _⟩ => show ((b.val * 2048 + t.val) * 1024 + e.val) / 1024 % 2048 = t.val; omega
    | ⟨2, _⟩ => show ((b.val * 2048 + t.val) * 1024 + e.val) / 64 % 16 = e.val / 64; omega
    | ⟨3, _⟩ => show ((b.val * 2048 + t.val) * 1024 + e.val) % 64 = e.val % 64; omega)
  have e29 : idx_main_v29 (ix4 b t (Spec.headOf e) (Spec.laneOf e)) = ix4 b (Spec.headOf e) t (Spec.laneOf e) := funext fun a => by
    match a with | ⟨0, _⟩ => rfl | ⟨1, _⟩ => rfl | ⟨2, _⟩ => rfl | ⟨3, _⟩ => rfl
  rw [val_main_v30_apply, e30, val_main_v29_apply, e29, v28_at]
  rfl

end Stages

theorem result_eq (x0 : (⟨S4x2048x1024, .f32⟩ : BufTy).Contents (Elt Ideal)) (x1 : (⟨S1024x3072, .f32⟩ : BufTy).Contents (Elt Ideal))
    (x2 : (⟨S3072, .f32⟩ : BufTy).Contents (Elt Ideal)) :
    Cert.ReferenceIdeal.Read.val_main_v30 (F := Ideal) x0 x1 x2 = Cert.Spec.outEarly x0 x1 x2 := by
  funext i
  rw [eq_ix3 i]
  exact v30_at x0 x1 x2 (i 0) (i 1) (i 2)

end Cert.ReferenceIdeal.RefValue

end
-- ==== Proof.Law.lean ====
/- The law joining the two sides, and the paired layout read back head by head. -/
import proofs.«423137_j14577119002882_3_alg».proof.Proof.Spec

noncomputable section

namespace Cert.Spec

open Idealize.ShloMosaic Idealize.ShloMosaic.ValueIdx

/-- The scale literal is a real number. -/
private theorem scale_real : ∃ c : ℝ, Ideal.ofBits .f32 0x3E000000#32 = (c : EReal) := by
  refine ⟨1 / 8, ?_⟩
  simp [Ideal.ofBits, Ideal.ieee, -EReal.coe_mul]; norm_num

/-- The fold's starting literal is −∞. -/
private theorem start_bot : Ideal.ofBits .f32 0xFF800000#32 = (⊥ : EReal) := by
  simp [Ideal.ofBits, Ideal.ieee]

/-- The coercion ℝ → EReal commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of reals is a real: it is at least the row's first entry and below +∞. -/
private theorem rowMax_real (s : Fin 2048 → ℝ) : ∃ m : ℝ, rowMax (fun j => (s j : EReal)) = (m : EReal) := by
  have hbot : rowMax (fun j => (s j : EReal)) ≠ ⊥ := by
    have h0 : (s 0 : EReal) ≤ rowMax (fun j => (s j : EReal)) :=
      (Finset.le_fold_max _).2 (Or.inr ⟨0, Finset.mem_univ _, le_rfl⟩)
    intro h
    rw [h] at h0
    exact absurd (le_bot_iff.1 h0) (EReal.coe_ne_bot _)
  have htop : rowMax (fun j => (s j : EReal)) ≠ ⊤ := by
    refine ne_of_lt ((Finset.fold_max_lt _).2 ⟨?_, fun j _ => EReal.coe_lt_top _⟩)
    rw [start_bot]; exact bot_lt_top
  exact ⟨(rowMax (fun j => (s j : EReal))).toReal, (EReal.coe_toReal htop hbot).symm⟩

/-- The law over the reals: division by a nonzero real sum is the product with its reciprocal, which passes under the
    sum. -/
private theorem late_early_real (e u : Fin 2048 → ℝ) (hpos : (∑ j : Fin 2048, e j) ≠ 0) :
    Ideal.div (∑ j : Fin 2048, (e j : EReal) * (u j : EReal)) ((∑ j : Fin 2048, e j : ℝ) : EReal)
      = ∑ j : Fin 2048, Ideal.div (e j : EReal) ((∑ j : Fin 2048, e j : ℝ) : EReal) * (u j : EReal) := by
  simp only [Ideal.div_coe hpos]
  have l : (∑ j : Fin 2048, (e j : EReal) * (u j : EReal)) = ((∑ j : Fin 2048, e j * u j : ℝ) : EReal) := by
    rw [coe_sum]; simp only [EReal.coe_mul]
  have r : (∑ j : Fin 2048, (e j : EReal) * ((1 / ∑ j : Fin 2048, e j : ℝ) : EReal) * (u j : EReal))
      = ((∑ j : Fin 2048, e j * (1 / ∑ j : Fin 2048, e j) * u j : ℝ) : EReal) := by
    rw [coe_sum]; simp only [EReal.coe_mul]
  rw [l, r, ← EReal.coe_mul, Finset.sum_mul]
  exact congrArg Real.toEReal (Finset.sum_congr rfl (fun j _ => by ring))

/-- The row law: with real queries, keys and values every weight is a positive real and the normaliser a nonzero
    real, so both divisions are products with its reciprocal and the two sides are one real sum. -/
private theorem lateRow_eq_earlyRow (qrow : Fin 64 → EReal) (k v : Fin 2048 → Fin 64 → EReal)
    (hq : ∀ d, ∃ r : ℝ, qrow d = (r : EReal)) (hk : ∀ j d, ∃ r : ℝ, k j d = (r : EReal))
    (hv : ∀ j d, ∃ r : ℝ, v j d = (r : EReal)) (d : Fin 64) :
    lateRow qrow k v d = earlyRow qrow k v d := by
  choose q' hq using hq
  choose k' hk using hk
  choose v' hv using hv
  obtain ⟨c, hc⟩ := scale_real
  have hs : rowScore qrow k = fun j => (((∑ d : Fin 64, q' d * k' j d) * c : ℝ) : EReal) := by
    funext j
    unfold rowScore
    rw [hc, EReal.coe_mul, coe_sum]
    simp only [hq, hk, EReal.coe_mul]
  obtain ⟨m, hm⟩ := rowMax_real (fun j => (∑ d : Fin 64, q' d * k' j d) * c)
  have hw : ∀ j, rowWeight qrow k j = ((Real.exp ((∑ d : Fin 64, q' d * k' j d) * c - m) : ℝ) : EReal) := by
    intro j
    unfold rowWeight
    rw [hs, hm, ← EReal.coe_sub]
    rfl
  have hden : rowDenom qrow k = ((∑ j : Fin 2048, Real.exp ((∑ d : Fin 64, q' d * k' j d) * c - m) : ℝ) : EReal) := by
    unfold rowDenom
    rw [coe_sum]
    exact Finset.sum_congr rfl (fun j _ => hw j)
  have hpos : (∑ j : Fin 2048, Real.exp ((∑ d : Fin 64, q' d * k' j d) * c - m)) ≠ 0 :=
    ne_of_gt (Finset.sum_pos (fun j _ => Real.exp_pos _) ⟨0, Finset.mem_univ _⟩)
  unfold lateRow earlyRow
  rw [hden]
  simp only [hw, hv]
  exact late_early_real _ _ hpos

/-- The projection of real inputs is real. -/
private theorem proj_real (x : SX.Idx → EReal) (w : SW.Idx → EReal) (bias : SB.Idx → EReal)
    (hx : Finite x) (hw : Finite w) (hb : Finite bias) (b : Fin 4) (t : Fin 2048) (e : Fin 3072) :
    ∃ r : ℝ, proj x w bias b t e = (r : EReal) := by
  choose x' hx using hx
  choose w' hw using hw
  choose b' hb using hb
  refine ⟨(∑ k : Fin 1024, x' (ix3 b t k) * w' (ix2 k e)) + b' (ix1 e), ?_⟩
  unfold proj
  rw [EReal.coe_add, coe_sum]
  simp only [hx, hw, hb, EReal.coe_mul]

/-- With finite inputs every weight is a positive real and the normaliser a nonzero real, so dividing the weighted
    sum of the values is normalising each weight first. -/
theorem outLate_eq_outEarly (x : SX.Idx → EReal) (w : SW.Idx → EReal) (bias : SB.Idx → EReal)
    (hx : Finite x) (hw : Finite w) (hb : Finite bias) : outLate x w bias = outEarly x w bias := by
  funext i
  unfold outLate outEarly merge attnLate attnEarly
  exact lateRow_eq_earlyRow _ _ _ (fun d => proj_real x w bias hx hw hb _ _ _)
    (fun j d => proj_real x w bias hx hw hb _ _ _) (fun j d => proj_real x w bias hx hw hb _ _ _) _

/-- Column 64·(h mod 2) + d of the queries' 128 of pair h/2 is the projection's query column of head h, lane d. -/
private theorem pairCol_q (h : Fin 16) (d : Fin 64) (h1 : h.val / 2 < 8) (h2 : h.val % 2 * 64 + d.val < 384) :
    pairCol ⟨h.val / 2, h1⟩ ⟨h.val % 2 * 64 + d.val, h2⟩ = col h 0 d := by
  apply Fin.ext
  simp only [pairCol, col, Fin.val_zero]
  have := h.isLt; have := d.isLt
  omega

/-- Likewise for the keys (columns 128‥255 of the pair's 384). -/
private theorem pairCol_k (h : Fin 16) (d : Fin 64) (h1 : h.val / 2 < 8) (h2 : 128 + h.val % 2 * 64 + d.val < 384) :
    pairCol ⟨h.val / 2, h1⟩ ⟨128 + h.val % 2 * 64 + d.val, h2⟩ = col h 1 d := by
  apply Fin.ext
  simp only [pairCol, col]
  have := h.isLt; have := d.isLt
  have e1 : ((1 : Fin 3) : ℕ) = 1 := rfl
  omega

/-- Likewise for the values (columns 256‥383 of the pair's 384). -/
private theorem pairCol_v (h : Fin 16) (d : Fin 64) (h1 : h.val / 2 < 8) (h2 : 256 + (h.val % 2 * 64 + d.val) < 384) :
    pairCol ⟨h.val / 2, h1⟩ ⟨256 + (h.val % 2 * 64 + d.val), h2⟩ = col h 2 d := by
  apply Fin.ext
  simp only [pairCol, col]
  have := h.isLt; have := d.isLt
  have e2 : ((2 : Fin 3) : ℕ) = 2 := rfl
  omega

private theorem pairedHeads_qArr (x : SX.Idx → EReal) (w : SW.Idx → EReal) (bias : SB.Idx → EReal) :
    pairedHeads (qArr x (wpOf w) (bpOf bias)) = headsOf x w bias 0 := by
  funext b h t d
  have h1 : h.val / 2 < 8 := by have := h.isLt; omega
  have h2 : h.val % 2 * 64 + d.val < 384 := by have := d.isLt; omega
  show proj x w bias b t (pairCol ⟨h.val / 2, h1⟩ ⟨h.val % 2 * 64 + d.val, h2⟩) = proj x w bias b t (col h 0 d)
  rw [pairCol_q]

private theorem keyHeads_kArr (x : SX.Idx → EReal) (w : SW.Idx → EReal) (bias : SB.Idx → EReal) :
    keyHeads (kArr x (wpOf w) (bpOf bias)) = headsOf x w bias 1 := by
  funext b h t d
  have h1 : h.val / 2 < 8 := by have := h.isLt; omega
  have h2 : 128 + h.val % 2 * 64 + d.val < 384 := by have := d.isLt; omega
  show proj x w bias b t (pairCol ⟨h.val / 2, h1⟩ ⟨128 + h.val % 2 * 64 + d.val, h2⟩) = proj x w bias b t (col h 1 d)
  rw [pairCol_k]

private theorem pairedHeads_vArr (x : SX.Idx → EReal) (w : SW.Idx → EReal) (bias : SB.Idx → EReal) :
    pairedHeads (vArr x (wpOf w) (bpOf bias)) = headsOf x w bias 2 := by
  funext b h t d
  have h1 : h.val / 2 < 8 := by have := h.isLt; omega
  have h2 : 256 + (h.val % 2 * 64 + d.val) < 384 := by have := d.isLt; omega
  show proj x w bias b t (pairCol ⟨h.val / 2, h1⟩ ⟨256 + (h.val % 2 * 64 + d.val), h2⟩) = proj x w bias b t (col h 2 d)
  rw [pairCol_v]

/-- The three arrays of the first stage, computed against the regrouped weights and read back head by head, are
    the projection's queries, keys and values: the second stage's result on them is the whole computation. -/
theorem attnArr_stage1 (x : SX.Idx → EReal) (w : SW.Idx → EReal) (bias : SB.Idx → EReal) :
    attnArr (qArr x (wpOf w) (bpOf bias)) (kArr x (wpOf w) (bpOf bias)) (vArr x (wpOf w) (bpOf bias)) = outLate x w bias := by
  unfold attnArr outLate
  rw [pairedHeads_qArr, keyHeads_kArr, pairedHeads_vArr]

end Cert.Spec

end
-- ==== Proof.Finite.lean ====
/- The precondition read: every entry of the three arguments is a real number. -/
import proofs.«423137_j14577119002882_3_alg».proof.Pre_finite_inputs
import proofs.«423137_j14577119002882_3_alg».proof.Proof.Gen.Pre_finite_inputs
import proofs.«423137_j14577119002882_3_alg».proof.Proof.Spec
import Idealize.ShloMosaic.Lib.ReduceAll

noncomputable section

namespace Cert.Pre_finite_inputs.Read

open Idealize.ShloMosaic Cert.Pre_finite_inputs

/-- The pattern 0x7F800000 (all-ones exponent, zero fraction, sign clear) denotes +∞. -/
private theorem inf_f32 : Ideal.ofBits .f32 0x7F800000#32 = (⊤ : EReal) := by
  simp [Ideal.ofBits, Ideal.ieee]

/-- An extended real whose absolute value max a (−a) lies strictly below +∞ is a real number:
    at a = ⊥ the maximum is −⊥ = ⊤ and at a = ⊤ it is ⊤ itself, neither of which is below ⊤. -/
private theorem real_of_abs_lt_top (a : EReal) (h : max a (-a) < ⊤) : ∃ r : ℝ, a = (r : EReal) := by
  induction a using EReal.rec with
  | bot => simp at h
  | coe r => exact ⟨r, rfl⟩
  | top => simp at h

/-- A rank-0 array has one index. -/
private instance : Subsingleton S_.Idx := ⟨fun a b => funext fun d => d.elim0⟩

/-- One conjunct of the predicate, at any shape: if the conjunction over all entries of |a| < +∞ holds,
    every entry of a is a real number. -/
private theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) :
    Cert.Spec.Finite a := by
  intro i
  have hi := Host.reduce_andi_all _ _ hr hu ValueIdx.ix0 e i
  -- the entry's comparison: |a i| < +∞ as a decided proposition
  have hlt : max (a i) (-(a i)) < (⊤ : EReal) := by
    have h1 : Ideal.cmp .olt (max (a i) (-(a i))) (Ideal.ofBits .f32 0x7F800000#32) = 1#1 := hi
    rw [inf_f32] at h1
    unfold Ideal.cmp at h1
    by_contra hn
    simp [hn] at h1
  exact real_of_abs_lt_top (a i) hlt

theorem finite_of_pre (x : FVec Ideal S4x2048x1024 .f32) (w : FVec Ideal S1024x3072 .f32) (b : FVec Ideal S3072 .f32)
    (h : Cert.Pre_finite_inputs.fn (F := Ideal) x w b = fun _ => 1#1) :
    Cert.Spec.Finite x ∧ Cert.Spec.Finite w ∧ Cert.Spec.Finite b := by
  have h0 := congrFun h ValueIdx.ix0
  dsimp only [Cert.Pre_finite_inputs.fn] at h0
  -- the predicate is (all x ∧ all w) ∧ all b
  obtain ⟨hxw, hb⟩ := IntOp.andi_eq_one.1 h0
  obtain ⟨hx, hw⟩ := IntOp.andi_eq_one.1 hxw
  exact ⟨finite_of_all x _ _ _ hx, finite_of_all w _ _ _ hw, finite_of_all b _ _ _ hb⟩

end Cert.Pre_finite_inputs.Read

end
-- ==== Proof.lean ====
/-
  Fused self-attention on one device: a projection of x (4 × 2048 × 1024) by a 1024 × 3072 weight matrix plus bias into
  queries, keys and values of 16 heads of width 64, then per head softmax(q kᵀ · 2⁻³) v, the heads written side by side.

  The kernel does it in two grid stages. Stage one multiplies row tiles of x by weights regrouped per PAIR of heads
  and leaves queries and values paired in 128 lanes and the keys transposed; stage two takes a tile of 512 query rows
  of a head pair against all 2048 keys and values, and for each of the two heads forms the scores, subtracts the row
  maximum, exponentiates, sums, multiplies by the values and divides the product by the row sum. The reference forms
  the projection whole, slices q, k and v out of it, takes jax's softmax (weights divided by their row sum first) and
  multiplies by the values.

  Over the extended reals every rounding is the identity, so both compute the same scores and weights
  p[i,j] = exp (s[i,j] − maxⱼ s[i,j]); they differ in (∑ⱼ p[i,j]·v[j,d]) / l[i] against ∑ⱼ (p[i,j] / l[i])·v[j,d].
  For finite inputs every p[i,j] is a positive real, l[i] a nonzero real and every value real, where the two agree
  (`Cert.Spec.outLate_eq_outEarly`); this is where the precondition is used.

  The modules: Spec (the mathematics in coordinates), Law (the law above; the paired layout read back), Finite (the
  precondition read), HostPre / Stage1 / Stage2 (the kernel's three segments as values), KRun (the kernel's run with
  its result named), RefValue (the reference's term read at an index).
-/
import proofs.«423137_j14577119002882_3_alg».proof.Defs
import proofs.«423137_j14577119002882_3_alg».proof.Proof.Gen.Kernel
import proofs.«423137_j14577119002882_3_alg».proof.Proof.Gen.Kernel.Frame
import proofs.«423137_j14577119002882_3_alg».proof.Proof.Gen.KernelIdeal
import proofs.«423137_j14577119002882_3_alg».proof.Proof.Gen.KernelIdeal.Frame
import proofs.«423137_j14577119002882_3_alg».proof.Proof.Gen.ReferenceIdeal
import proofs.«423137_j14577119002882_3_alg».proof.Proof.Gen.ReferenceIdeal.Run
import proofs.«423137_j14577119002882_3_alg».proof.Proof.Gen.ReferenceIdeal.Read
import proofs.«423137_j14577119002882_3_alg».proof.Proof.Gen.Pre_finite_inputs
import proofs.«423137_j14577119002882_3_alg».proof.Proof.KRun
import proofs.«423137_j14577119002882_3_alg».proof.Proof.HostPre
import proofs.«423137_j14577119002882_3_alg».proof.Proof.Stage1
import proofs.«423137_j14577119002882_3_alg».proof.Proof.Stage2
import proofs.«423137_j14577119002882_3_alg».proof.Proof.RefValue
import proofs.«423137_j14577119002882_3_alg».proof.Proof.Law
import proofs.«423137_j14577119002882_3_alg».proof.Proof.Finite

noncomputable section

namespace Cert.Proof

open Idealize.ShloMosaic Idealize.ShloMosaic.TcCoe Idealize.SL.Sem

section KernelValue
open Cert.KernelIdeal Cert.KernelIdeal.Gen

/-- The kernel's result array, through its three segments: the second stage's attention of the first stage's three
    arrays, which are the projection against the regrouped weights the host operations prepare. -/
theorem kernel_result (m : (ℓ : Loc nD τ sig) → Buf (Elt Ideal) ℓ) (ρ : Dev nD → PrngReg) (c : Dev nD) :
    W3 m ρ c (Proc.devRef .tc main_v9)
      = Cert.Spec.outLate (m ((c.tc : Thread nD τ).loc main_arg0)) (m ((c.tc : Thread nD τ).loc main_arg1)) (m ((c.tc : Thread nD τ).loc main_arg2)) := by
  have e3 : W3 m ρ c (Proc.devRef .tc main_v9) = (dat1 (V2 m ρ) c).arrAt 3 cfg1.N := W3_arr m ρ c 3
  have eq : V2 m ρ c main_v8_0 = (dat0 (V1 m ρ) c).arrAt 3 cfg0.N := W2_arr m ρ c 3
  have ek : V2 m ρ c main_v8_1 = (dat0 (V1 m ρ) c).arrAt 4 cfg0.N := W2_arr m ρ c 4
  have ev : V2 m ρ c main_v8_2 = (dat0 (V1 m ρ) c).arrAt 5 cfg0.N := W2_arr m ρ c 5
  rw [e3, Cert.KernelIdeal.Stage2.out_eq, eq, ek, ev, Cert.KernelIdeal.Stage1.q_eq, Cert.KernelIdeal.Stage1.k_eq,
    Cert.KernelIdeal.Stage1.v_eq, Cert.KernelIdeal.HostPre.x_eq, Cert.KernelIdeal.HostPre.wp_eq, Cert.KernelIdeal.HostPre.bp_eq]
  exact Cert.Spec.attnArr_stage1 _ _ _

end KernelValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at one function of the arguments: the kernel's at the late division, the
    reference's at the early one, equal on finite inputs. -/
theorem algebraic : Cert.algebraic_KernelIdeal_ReferenceIdeal := by
  intro m ρ m' ρ' hpre hagree
  refine ⟨fun c => Cert.Spec.outLate (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun r h c => ⟨(h c).1.trans (kernel_result m ρ c), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, Cert.ReferenceIdeal.RefValue.result_eq, (hagree c).1, (hagree c).2.1, (hagree c).2.2]
    obtain ⟨hx, hw, hb⟩ := Cert.Pre_finite_inputs.Read.finite_of_pre _ _ _ (hpre c)
    exact (Cert.Spec.outLate_eq_outEarly _ _ _ hx hw hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
